-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x256 : Shape := ⟨3, ![16, 128, 256]⟩
abbrev S16x256x256 : Shape := ⟨3, ![16, 256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16x128x256 : S_.BroadcastsInDim S16x128x256 (![] : Fin 0 → Fin S16x128x256.rank)
  reducesTo_S16x128x256_S_d0_1_2 : S16x128x256.ReducesTo [0, 1, 2] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S16x128x256 .f32) (main_arg1 : FVec F S16x256x256 .f32) (main_arg2 : FVec F S256x128 .f32) (main_arg3 : FVec F S128 .f32) (main_arg4 : FVec F S256x128 .f32) (main_arg5 : FVec F S128 .f32) (main_arg6 : FVec F S128x1 .f32) (main_arg7 : FVec F S1 .f32) : IVec S_ 1 :=
  let main_v0 : FVec F S16x128x256 .f32 := Host.absf main_arg0
  let main_cst : FVec F S_ .f32 := constant S_ .f32 0x7F800000#32
  let main_v1 : FVec F S16x128x256 .f32 := broadcastInDim S16x128x256 ![] bcast_S_S16x128x256 main_cst
  let main_v2 : IVec S16x128x256 1 := cmpf .olt main_v0 main_v1
  let main_c : IVec S_ 1 := constantI S_ 1 1#1
  let main_v3 : IVec S_ 1 := (fun x v => Host.reduce IntOp.andi x v reducesTo_S16x128x256_S_d0_1_2 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S16x128x256 : Shape := ⟨3, ![16, 128, 256]⟩
abbrev S16x256x256 : Shape := ⟨3, ![16, 256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x128x256 : Shape := ⟨3, ![1, 128, 256]⟩
abbrev S1x256x256 : Shape := ⟨3, ![1, 256, 256]⟩
abbrev S128x128 : Shape := ⟨2, ![128, 128]⟩
abbrev S128x256 : Shape := ⟨2, ![128, 256]⟩
abbrev S1x128 : Shape := ⟨2, ![1, 128]⟩
abbrev S1x64x256 : Shape := ⟨3, ![1, 64, 256]⟩
abbrev S64x256 : Shape := ⟨2, ![64, 256]⟩
abbrev S64x128 : Shape := ⟨2, ![64, 128]⟩
abbrev S64x1x128 : Shape := ⟨3, ![64, 1, 128]⟩
abbrev S1x128x128 : Shape := ⟨3, ![1, 128, 128]⟩
abbrev S64x128x128 : Shape := ⟨3, ![64, 128, 128]⟩
abbrev S1x1x128 : Shape := ⟨3, ![1, 1, 128]⟩
abbrev S256 : Shape := ⟨1, ![256]⟩
abbrev S256x1 : Shape := ⟨2, ![256, 1]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S16x128x256, .f32⟩
  | .hbm, ⟨1, _⟩ => ⟨S16x256x256, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S16x256x256, .f32⟩
  | .local _ .vmem, ⟨0, _⟩ => ⟨S1x128x256, .f32⟩
  | .local _ .vmem, ⟨1, _⟩ => ⟨S1x128x256, .f32⟩
  | .local _ .vmem, ⟨2, _⟩ => ⟨S1x256x256, .f32⟩
  | .local _ .vmem, ⟨3, _⟩ => ⟨S1x256x256, .f32⟩
  | .local _ .vmem, ⟨4, _⟩ => ⟨S256x128, .f32⟩
  | .local _ .vmem, ⟨5, _⟩ => ⟨S128, .f32⟩
  | .local _ .vmem, ⟨6, _⟩ => ⟨S256x128, .f32⟩
  | .local _ .vmem, ⟨7, _⟩ => ⟨S128, .f32⟩
  | .local _ .vmem, ⟨8, _⟩ => ⟨S128x1, .f32⟩
  | .local _ .vmem, ⟨9, _⟩ => ⟨S1, .f32⟩
  | .local _ .vmem, ⟨10, _⟩ => ⟨S1x256x256, .f32⟩
  | .local _ .vmem, ⟨11, _⟩ => ⟨S1x256x256, .f32⟩
  | .local _ .vmem, ⟨12, _⟩ => ⟨S256x128, .f32⟩
  | .local _ .vmem, ⟨13, _⟩ => ⟨S128x128, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v22 : BitVec 32 := Scalar.addi c0_i32 c4_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v38 : BitVec 32 := Scalar.muli arg12 c64_i32
  v38
def k0_off1 (k0_t1 : Fin k0_t1_loop.trips) : Fin 3 → Nat :=
  let c0_24 : Index := 0#32
  let c0_i32 : BitVec 32 := 0#32
  let c1_i32 : BitVec 32 := 1#32
  let arg12 : BitVec 32 := Scf.iv c0_i32 c1_i32 k0_t1
  let c64_i32 : BitVec 32 := 64#32
  let v38 : BitVec 32 := Scalar.muli arg12 c64_i32
  let v39 : BitVec 32 := v38
  let v40 : Index := Scalar.indexCast v39
  let c0_25 : Index := 0#32
  ![0, v40.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v38 : BitVec 32 := Scalar.muli arg12 c64_i32
  let v39 : BitVec 32 := v38
  let v62 : Index := Scalar.indexCast v39
  let c0_28 : Index := 0#32
  ![v62.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  shapeCasts_S128x1_S128 : S128x1.ShapeCasts S128
  inb_S1_S1_0 : ∀ a, (![0] : Fin 1 → Nat) a + S1.size a ≤ S1.size a
  h_S1 : 0 < S1.numel
  inpos_S1_p0 : ∀ a, (![0] : Fin 1 → Nat) a < S1.size a
  shapeCasts_S128_S1x128 : S128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S1x64x256 : 0 < S1x64x256.numel
  shapeCasts_S1x64x256_S64x256 : S1x64x256.ShapeCasts S64x256
  broadcasts_S1x128_S64x128 : S1x128.Broadcasts S64x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S128_S1x1x128 : S128.ShapeCasts S1x1x128
  broadcasts_S1x1x128_S64x128x128 : S1x1x128.Broadcasts S64x128x128
  reduces_S64x128x128_S64x128 : S64x128x128.Reduces [2] S64x128
  h_S64x128 : 0 < S64x128.numel
  shapeCasts_S64x128_S64x128 : S64x128.ShapeCasts S64x128
  reduces_S256x128_S256 : S256x128.Reduces [1] S256
  shapeCasts_S256_S256x1 : S256.ShapeCasts S256x1
  broadcasts_S256x1_S256x128 : S256x1.Broadcasts S256x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S128x256_S256x128_S128x128_1_0_0_1_n_n_wf : DotDims.WF S128x256 S256x128 S128x128 [1] [0] [0] [1] [] []
  dot_S64x256_S256x128_S64x128_1_0_0_1_n_n_wf : DotDims.WF S64x256 S256x128 S64x128 [1] [0] [0] [1] [] []
  dot_S256x128_S128x256_S256x256_1_0_0_1_n_n_wf : DotDims.WF S256x128 S128x256 S256x256 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S1x64x256.size a ≤ S1x256x256.size a
  k0_off2_inb : ∀ k0_t1 : Fin k0_t1_loop.trips, ∀ a, (k0_off2 k0_t1) a + S64x128.size a ≤ S256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S16x128x256.size a
  hwx0_0 : ∀ i : grid0.Coords, EltTy.bits .f32 = 32 ∨ (Rect.block (s := S16x128x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x256.size a ≤ S16x256x256.size a
  hwx0_8 : ∀ i : grid0.Coords, EltTy.bits .f32 = 32 ∨ (Rect.block (s := S16x256x256) S1x256x256.size (cc0_transform_8 i) (hinb0_8 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x128x256 : Shape := ⟨3, ![16, 128, 256]⟩
abbrev S16x256x256 : Shape := ⟨3, ![16, 256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S16x256x128 : Shape := ⟨3, ![16, 256, 128]⟩
abbrev S1x1x128 : Shape := ⟨3, ![1, 1, 128]⟩
abbrev S16x256x1x128 : Shape := ⟨4, ![16, 256, 1, 128]⟩
abbrev S16x128x128 : Shape := ⟨3, ![16, 128, 128]⟩
abbrev S16x1x128x128 : Shape := ⟨4, ![16, 1, 128, 128]⟩
abbrev S16x256x128x128 : Shape := ⟨4, ![16, 256, 128, 128]⟩
abbrev S16x256x128x1 : Shape := ⟨4, ![16, 256, 128, 1]⟩
abbrev S1x1x1x1 : Shape := ⟨4, ![1, 1, 1, 1]⟩
abbrev S_ : Shape := ⟨0, ![]⟩
abbrev S16x256x1 : Shape := ⟨3, ![16, 256, 1]⟩
abbrev S16x256x1x1 : Shape := ⟨4, ![16, 256, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S16x256x256, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S16x256x128, .f32⟩
  | .hbm, ⟨9, _⟩ => ⟨S1x1x128, .f32⟩
  | .hbm, ⟨10, _⟩ => ⟨S16x256x128, .f32⟩
  | .hbm, ⟨11, _⟩ => ⟨S16x256x128, .f32⟩
  | .hbm, ⟨12, _⟩ => ⟨S16x256x1x128, .f32⟩
  | .hbm, ⟨13, _⟩ => ⟨S16x128x128, .f32⟩
  | .hbm, ⟨14, _⟩ => ⟨S1x1x128, .f32⟩
  | .hbm, ⟨15, _⟩ => ⟨S16x128x128, .f32⟩
  | .hbm, ⟨16, _⟩ => ⟨S16x128x128, .f32⟩
  | .hbm, ⟨17, _⟩ => ⟨S16x1x128x128, .f32⟩
  | .hbm, ⟨18, _⟩ => ⟨S16x256x128x128, .f32⟩
  | .hbm, ⟨19, _⟩ => ⟨S16x256x128x128, .f32⟩
  | .hbm, ⟨20, _⟩ => ⟨S16x256x128x128, .f32⟩
  | .hbm, ⟨21, _⟩ => ⟨S16x256x128x128, .f32⟩
  | .hbm, ⟨22, _⟩ => ⟨S16x256x128x1, .f32⟩
  | .hbm, ⟨23, _⟩ => ⟨S1x1x1x1, .f32⟩
  | .hbm, ⟨24, _⟩ => ⟨S16x256x128x1, .f32⟩
  | .hbm, ⟨25, _⟩ => ⟨S16x256x128x1, .f32⟩
  | .hbm, ⟨26, _⟩ => ⟨S_, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S16x256x1x1, .f32⟩
  | .hbm, ⟨32, _⟩ => ⟨S16x256x128x1, .f32⟩
  | .hbm, ⟨33, _⟩ => ⟨S16x256x128x1, .f32⟩
  | .hbm, ⟨34, _⟩ => ⟨S16x256x128x1, .f32⟩
  | .hbm, ⟨35, _⟩ => ⟨S_, .f32⟩
  | .hbm, ⟨36, _⟩ => ⟨S16x256x1, .f32⟩
  | .hbm, ⟨37, _⟩ => ⟨S16x256x1x1, .f32⟩
  | .hbm, ⟨38, _⟩ => ⟨S16x256x128x1, .f32⟩
  | .hbm, ⟨39, _⟩ => ⟨S16x256x128x1, .f32⟩
  | .hbm, ⟨40, _⟩ => ⟨S_, .f32⟩
  | .hbm, ⟨41, _⟩ => ⟨S16x256x128, .f32⟩
  | .hbm, ⟨42, _⟩ => ⟨S16x256x256, .f32⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x256x128_0_1_2 : S1x1x128.BroadcastsInDim S16x256x128 (![0, 1, 2] : Fin 3 → Fin S16x256x128.rank)
  bcast_S16x256x128_S16x256x1x128_0_1_3 : S16x256x128.BroadcastsInDim S16x256x1x128 (![0, 1, 3] : Fin 3 → Fin S16x256x1x128.rank)
  bcast_S1x1x128_S16x128x128_0_1_2 : S1x1x128.BroadcastsInDim S16x128x128 (![0, 1, 2] : Fin 3 → Fin S16x128x128.rank)
  bcast_S16x128x128_S16x1x128x128_0_2_3 : S16x128x128.BroadcastsInDim S16x1x128x128 (![0, 2, 3] : Fin 3 → Fin S16x1x128x128.rank)
  bcast_S16x256x1x128_S16x256x128x128_0_1_2_3 : S16x256x1x128.BroadcastsInDim S16x256x128x128 (![0, 1, 2, 3] : Fin 4 → Fin S16x256x128x128.rank)
  bcast_S16x1x128x128_S16x256x128x128_0_1_2_3 : S16x1x128x128.BroadcastsInDim S16x256x128x128 (![0, 1, 2, 3] : Fin 4 → Fin S16x256x128x128.rank)
  bcast_S1_S1x1x1x1_3 : S1.BroadcastsInDim S1x1x1x1 (![3] : Fin 1 → Fin S1x1x1x1.rank)
  bcast_S1x1x1x1_S16x256x128x1_0_1_2_3 : S1x1x1x1.BroadcastsInDim S16x256x128x1 (![0, 1, 2, 3] : Fin 4 → Fin S16x256x128x1.rank)
  reducesTo_S16x256x128x1_S16x256x1_d2 : S16x256x128x1.ReducesTo [2] S16x256x1
  h_S_ : 0 < S_.numel
  bcast_S_S16x256x1 : S_.BroadcastsInDim S16x256x1 (![] : Fin 0 → Fin S16x256x1.rank)
  bcast_S16x256x1_S16x256x1x1_0_1_3 : S16x256x1.BroadcastsInDim S16x256x1x1 (![0, 1, 3] : Fin 3 → Fin S16x256x1x1.rank)
  bcast_S16x256x1x1_S16x256x128x1_0_1_2_3 : S16x256x1x1.BroadcastsInDim S16x256x128x1 (![0, 1, 2, 3] : Fin 4 → Fin S16x256x128x1.rank)
  reducesTo_S16x256x128x1_S16x256x128_d3 : S16x256x128x1.ReducesTo [3] S16x256x128
  dot_S16x256x256_S256x128_S16x256x128_2_0_01_1_n_n_wf : DotDims.WF S16x256x256 S256x128 S16x256x128 [2] [0] [0, 1] [1] [] []
  dot_S16x128x256_S256x128_S16x128x128_2_0_01_1_n_n_wf : DotDims.WF S16x128x256 S256x128 S16x128x128 [2] [0] [0, 1] [1] [] []
  dot_S16x256x128x128_S128x1_S16x256x128x1_3_0_012_1_n_n_wf : DotDims.WF S16x256x128x128 S128x1 S16x256x128x1 [3] [0] [0, 1, 2] [1] [] []
  dot_S16x256x128_S16x128x256_S16x256x256_2_1_1_2_0_0_wf : DotDims.WF S16x256x128 S16x128x256 S16x256x256 [2] [1] [1] [2] [0] [0]

variable [Facts₀]

def dot_S16x256x256_S256x128_S16x256x128_2_0_01_1_n_n : DotDims S16x256x256 S256x128 S16x256x128 where
  lhsContracting := [2]
  rhsContracting := [0]
  lhsNonContracting := [0, 1]
  rhsNonContracting := [1]
  lhsBatch := []
  rhsBatch := []
  wf := dot_S16x256x256_S256x128_S16x256x128_2_0_01_1_n_n_wf
def dot_S16x128x256_S256x128_S16x128x128_2_0_01_1_n_n : DotDims S16x128x256 S256x128 S16x128x128 where
  lhsContracting := [2]
  rhsContracting := [0]
  lhsNonContracting := [0, 1]
  rhsNonContracting := [1]
  lhsBatch := []
  rhsBatch := []
  wf := dot_S16x128x256_S256x128_S16x128x128_2_0_01_1_n_n_wf
def dot_S16x256x128x128_S128x1_S16x256x128x1_3_0_012_1_n_n : DotDims S16x256x128x128 S128x1 S16x256x128x1 where
  lhsContracting := [3]
  rhsContracting := [0]
  lhsNonContracting := [0, 1, 2]
  rhsNonContracting := [1]
  lhsBatch := []
  rhsBatch := []
  wf := dot_S16x256x128x128_S128x1_S16x256x128x1_3_0_012_1_n_n_wf
def dot_S16x256x128_S16x128x256_S16x256x256_2_1_1_2_0_0 : DotDims S16x256x128 S16x128x256 S16x256x256 where
  lhsContracting := [2]
  rhsContracting := [1]
  lhsNonContracting := [1]
  rhsNonContracting := [2]
  lhsBatch := [0]
  rhsBatch := [0]
  wf := dot_S16x256x128_S16x128x256_S16x256x256_2_1_1_2_0_0_wf

class Facts : Prop extends Facts₀ where

variable [Facts]
-- ==== Proof.ScoreLoopBits.lean ====
/-
  The score scratch after the body's loop over chunks of sixty-four encoder rows.

  Trip j of the loop loads rows [64 j, 64 j + 64) of the encoder block and stores, into rows [64 j, 64 j + 64) of the
  score scratch, that chunk's scores against every knowledge row. So after the four trips the scratch holds, at row r
  and column k, the score of row  r mod 64  of chunk  r / 64 : one function of the scratch index. Each trip's one store
  agrees with that function on its rectangle, and the four rectangles cover the 256 rows.
-/
import proofs.«411561_j9826885173721_3_alg».proof.Proof.Gen.Kernel.Loops
import Idealize.ShloMosaic.Lib.Pipeline.Value
import Idealize.ShloMosaic.Lib.ValueIdx

set_option maxRecDepth 16384

noncomputable section

namespace Cert.Attn.LoopBits

open Cert.Kernel Cert.Kernel.Gen Idealize.ShloMosaic Idealize.ShloMosaic.TcCoe Idealize.ShloMosaic.ValueIdx Idealize.SL.Sem

variable {F : FTy → Type} [FloatOps F]

/-- The loop makes four trips. -/
theorem trips_eq : k0_t1_loop.trips = 4 := by decide

/-- The trip that writes scratch row `r`. -/
def rowTrip (r : Fin 256) : Fin k0_t1_loop.trips := ⟨r.val / 64, by rw [trips_eq]; have := r.isLt; omega⟩

/-- The row of its chunk that scratch row `r` scores. -/
def rowIn (r : Fin 256) : Fin 64 := ⟨r.val % 64, Nat.mod_lt _ (by decide)⟩

variable (𝒱 : Variants) (bd : Option 𝒱.V) (c : Dev nD) (i : grid0.Coords) (arg1 : Memref sig .tc .vmem S1x128x256 .f32) (harg1 : arg1.IsWhole) (arg2 : Memref sig .tc .vmem S1x256x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128x1 .f32) (harg7 : arg7.IsWhole) (arg8 : Memref sig .tc .vmem S1 .f32) (harg8 : arg8.IsWhole) (arg9 : Memref sig .tc .vmem S1x256x256 .f32) (harg9 : arg9.IsWhole) (arg10 : Memref sig .tc .vmem S256x128 .f32) (harg10 : arg10.IsWhole) (arg11 : Memref sig .tc .vmem S128x128 .f32) (harg11 : arg11.IsWhole)
  (v3 : Vec F S256x128 .f32) (v7 : Vec F S128 .f32) (v9 : Vec F S128x1 .f32) (v12 : Vec F S1 .f32) (v21 : Vec F S128x128 .f32)
  (X : BufTy.Contents (Elt F) arg2.view.ty)

/-- Rows [64 j, 64 j + 64) of the encoder block, as trip `j` loads them. -/
def chunkAt (j : Fin k0_t1_loop.trips) : Vec F S1x64x256 .f32 :=
  View.readAt (Elt F) arg2.view (Rect.unit (s := S1x256x256) (k0_off1 j) S1x64x256.size (k0_off1_inb j)).toLoadRect X

/-- The rectangle of the score scratch trip `j` stores through: rows [64 j, 64 j + 64), every column. -/
abbrev tripRect (j : Fin k0_t1_loop.trips) : Rect S256x128 :=
  Rect.unit (s := S256x128) (k0_off2 j) S64x128.size (k0_off2_inb j)

/-- ONE TRIP'S PIECE: a store, through the trip's rectangle, of the chunk's scores. -/
theorem tripL_eq (j : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X j
      = [⟨tripRect j, k0_pay4 v3 v7 v9 v12 v21 (chunkAt arg2 X j)⟩] := by
  unfold tripL_k0_t1 trip_k0_t1
  rfl

/-- The score scratch after the loop, as one function of its index. -/
def scoreG : S256x128.Idx → Elt F .f32 := fun y =>
  k0_pay4 v3 v7 v9 v12 v21 (chunkAt arg2 X (rowTrip (y 0))) (ix2 (rowIn (y 0)) (y 1))

theorem emb_row (j : Fin k0_t1_loop.trips) (x : (tripRect j).shape.Idx) :
    ((tripRect j).emb x 0).val = 64 * j.val + (x 0).val := by
  rw [Rect.emb_apply]
  show k0_off2 j 0 + 1 * (x 0).val = _
  rw [k0_off2_eq]
  show 64 * j.val + 1 * (x 0).val = _
  omega

theorem emb_col (j : Fin k0_t1_loop.trips) (x : (tripRect j).shape.Idx) :
    ((tripRect j).emb x 1).val = (x 1).val := by
  rw [Rect.emb_apply]
  show k0_off2 j 1 + 1 * (x 1).val = _
  rw [k0_off2_eq]
  show 0 + 1 * (x 1).val = _
  omega

/-- A trip's store agrees with the one function on the trip's rectangle. -/
theorem trip_agrees (j : Fin k0_t1_loop.trips) (x : (tripRect j).shape.Idx) :
    k0_pay4 v3 v7 v9 v12 v21 (chunkAt arg2 X j) x = scoreG arg2 v3 v7 v9 v12 v21 X ((tripRect j).emb x) := by
  have h0 := emb_row j x
  have h1 := emb_col j x
  have hx0 : (x 0).val < 64 := (x 0).isLt
  have e1 : rowTrip ((tripRect j).emb x 0) = j := Fin.ext (by
    show ((tripRect j).emb x 0).val / 64 = j.val
    rw [h0]; omega)
  have e2 : (ix2 (rowIn ((tripRect j).emb x 0)) ((tripRect j).emb x 1) : S64x128.Idx) = x := funext fun a => Fin.ext (by
    match a with
    | ⟨0, _⟩ =>
      show ((tripRect j).emb x 0).val % 64 = (x 0).val
      rw [h0]; omega
    | ⟨1, _⟩ => exact h1)
  unfold scoreG
  rw [e1, e2]

/-- Every piece of the trips before `n` agrees with the one function on its rectangle. -/
theorem pieces_agree : ∀ n, n ≤ k0_t1_loop.trips →
    ∀ p ∈ pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X n,
      ∀ x : p.1.shape.Idx, p.2 x = scoreG arg2 v3 v7 v9 v12 v21 X (p.1.emb x)
  | 0, _, p, hp, _ => by
    rw [pb_k0_t1] at hp
    exact absurd hp List.not_mem_nil
  | n + 1, hn, p, hp, x => by
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 v3 v7 v9 v12 v21 X ⟨n, hlt⟩
    rw [show (⟨n, hlt⟩ : Fin k0_t1_loop.trips).val + 1 = n + 1 from rfl, tripL_eq] at hs
    rw [hs] at hp
    rcases List.mem_append.mp hp with h | h
    · rw [List.mem_singleton] at h
      subst h
      exact trip_agrees arg2 v3 v7 v9 v12 v21 X ⟨n, hlt⟩ x
    · exact pieces_agree n (Nat.le_of_lt hlt) p h x

/-- Trip `j`'s piece is among the pieces of the trips before `n`, for every `n` past `j`. -/
theorem piece_mem : ∀ n, n ≤ k0_t1_loop.trips → ∀ j : Fin k0_t1_loop.trips, j.val < n →
    (⟨tripRect j, k0_pay4 v3 v7 v9 v12 v21 (chunkAt arg2 X j)⟩ : View.Piece (Elt F) S256x128 .f32)
      ∈ pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X n
  | 0, _, j, hj => absurd hj (Nat.not_lt_zero _)
  | n + 1, hn, j, hj => by
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 v3 v7 v9 v12 v21 X ⟨n, hlt⟩
    rw [show (⟨n, hlt⟩ : Fin k0_t1_loop.trips).val + 1 = n + 1 from rfl, tripL_eq] at hs
    rw [hs]
    by_cases h : j.val = n
    · have : j = ⟨n, hlt⟩ := Fin.ext h
      subst this
      exact List.mem_append_left _ (List.mem_singleton_self _)
    · exact List.mem_append_right _ (piece_mem n (Nat.le_of_lt hlt) j (by omega))

/-- The four trips' rectangles cover the scratch. -/
theorem pieces_cover (y : S256x128.Idx) :
    ∃ p ∈ pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X k0_t1_loop.trips, y ∈ p.1.set := by
  refine ⟨_, piece_mem 𝒱 bd c i arg1 harg1 arg2 harg2 arg3 harg3 arg4 harg4 arg5 harg5 arg6 harg6 arg7 harg7 arg8 harg8 arg9 harg9 arg10 harg10 arg11 harg11 v3 v7 v9 v12 v21 X k0_t1_loop.trips le_rfl (rowTrip (y 0)) (rowTrip (y 0)).isLt, ?_⟩
  show y ∈ (tripRect (rowTrip (y 0))).set
  rw [Rect.mem_set_unit]
  intro a
  rw [k0_off2_eq]
  have hy0 : (y 0).val < 256 := (y 0).isLt
  have hy1 : (y 1).val < 128 := (y 1).isLt
  match a with
  | ⟨0, _⟩ =>
    show 64 * ((y 0).val / 64) ≤ (y 0).val ∧ (y 0).val < 64 * ((y 0).val / 64) + 64
    omega
  | ⟨1, _⟩ =>
    show 0 ≤ (y 1).val ∧ (y 1).val < 0 + 128
    omega

/-- THE SCRATCH AFTER THE LOOP: the canonical contents of the four trips' stores is the one function. -/
theorem canon_pieces :
    View.canon (pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X k0_t1_loop.trips)
      = scoreG arg2 v3 v7 v9 v12 v21 X :=
  funext fun y => View.canon_apply_of_pieces (scoreG arg2 v3 v7 v9 v12 v21 X) _
    (pieces_agree 𝒱 bd c i arg1 harg1 arg2 harg2 arg3 harg3 arg4 harg4 arg5 harg5 arg6 harg6 arg7 harg7 arg8 harg8 arg9 harg9 arg10 harg10 arg11 harg11 v3 v7 v9 v12 v21 X k0_t1_loop.trips le_rfl) y
    (pieces_cover 𝒱 bd c i arg1 harg1 arg2 harg2 arg3 harg3 arg4 harg4 arg5 harg5 arg6 harg6 arg7 harg7 arg8 harg8 arg9 harg9 arg10 harg10 arg11 harg11 v3 v7 v9 v12 v21 X y)

theorem zero2 : (![0, 0] : Fin 2 → Nat) = fun _ => 0 := funext fun a => by
  match a with
  | ⟨0, _⟩ => rfl
  | ⟨1, _⟩ => rfl

/-- READ BACK WHOLE after the loop, the scratch is the one function, whatever it held before the loop: the four trips'
    stores cover it. -/
theorem read_after_loop (G : BufTy.Contents (Elt F) arg10.view.ty) :
    View.readAt (Elt F) arg10.view (Rect.unit (s := S256x128) ![0, 0] S256x128.size inb_S256x128_S256x128_0_0).toLoadRect
        (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X k0_t1_loop.trips))
      = scoreG arg2 v3 v7 v9 v12 v21 X := by
  rw [View.readAt_eq_ld, View.read_writes_eq_canon _ _ _ (pieces_cover 𝒱 bd c i arg1 harg1 arg2 harg2 arg3 harg3 arg4 harg4 arg5 harg5 arg6 harg6 arg7 harg7 arg8 harg8 arg9 harg9 arg10 harg10 arg11 harg11 v3 v7 v9 v12 v21 X),
    canon_pieces, View.ld_unit_zero (S := S256x128) zero2]

end Cert.Attn.LoopBits

end
-- ==== Proof.ScoreLoop.lean ====
/-
  The score scratch after the body's loop over chunks of sixty-four encoder rows.

  Trip j of the loop loads rows [64 j, 64 j + 64) of the encoder block and stores, into rows [64 j, 64 j + 64) of the
  score scratch, that chunk's scores against every knowledge row. So after the four trips the scratch holds, at row r
  and column k, the score of row  r mod 64  of chunk  r / 64 : one function of the scratch index. Each trip's one store
  agrees with that function on its rectangle, and the four rectangles cover the 256 rows.
-/
import proofs.«411561_j9826885173721_3_alg».proof.Proof.Gen.KernelIdeal.Loops
import Idealize.ShloMosaic.Lib.Pipeline.Value
import Idealize.ShloMosaic.Lib.ValueIdx

set_option maxRecDepth 16384

noncomputable section

namespace Cert.Attn.Loop

open Cert.KernelIdeal Cert.KernelIdeal.Gen Idealize.ShloMosaic Idealize.ShloMosaic.TcCoe Idealize.ShloMosaic.ValueIdx Idealize.SL.Sem

variable {F : FTy → Type} [FloatOps F]

/-- The loop makes four trips. -/
theorem trips_eq : k0_t1_loop.trips = 4 := by decide

/-- The trip that writes scratch row `r`. -/
def rowTrip (r : Fin 256) : Fin k0_t1_loop.trips := ⟨r.val / 64, by rw [trips_eq]; have := r.isLt; omega⟩

/-- The row of its chunk that scratch row `r` scores. -/
def rowIn (r : Fin 256) : Fin 64 := ⟨r.val % 64, Nat.mod_lt _ (by decide)⟩

variable (𝒱 : Variants) (bd : Option 𝒱.V) (c : Dev nD) (i : grid0.Coords) (arg1 : Memref sig .tc .vmem S1x128x256 .f32) (harg1 : arg1.IsWhole) (arg2 : Memref sig .tc .vmem S1x256x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128x1 .f32) (harg7 : arg7.IsWhole) (arg8 : Memref sig .tc .vmem S1 .f32) (harg8 : arg8.IsWhole) (arg9 : Memref sig .tc .vmem S1x256x256 .f32) (harg9 : arg9.IsWhole) (arg10 : Memref sig .tc .vmem S256x128 .f32) (harg10 : arg10.IsWhole) (arg11 : Memref sig .tc .vmem S128x128 .f32) (harg11 : arg11.IsWhole)
  (v3 : Vec F S256x128 .f32) (v7 : Vec F S128 .f32) (v9 : Vec F S128x1 .f32) (v12 : Vec F S1 .f32) (v21 : Vec F S128x128 .f32)
  (X : BufTy.Contents (Elt F) arg2.view.ty)

/-- Rows [64 j, 64 j + 64) of the encoder block, as trip `j` loads them. -/
def chunkAt (j : Fin k0_t1_loop.trips) : Vec F S1x64x256 .f32 :=
  View.readAt (Elt F) arg2.view (Rect.unit (s := S1x256x256) (k0_off1 j) S1x64x256.size (k0_off1_inb j)).toLoadRect X

/-- The rectangle of the score scratch trip `j` stores through: rows [64 j, 64 j + 64), every column. -/
abbrev tripRect (j : Fin k0_t1_loop.trips) : Rect S256x128 :=
  Rect.unit (s := S256x128) (k0_off2 j) S64x128.size (k0_off2_inb j)

/-- ONE TRIP'S PIECE: a store, through the trip's rectangle, of the chunk's scores. -/
theorem tripL_eq (j : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X j
      = [⟨tripRect j, k0_pay4 v3 v7 v9 v12 v21 (chunkAt arg2 X j)⟩] := by
  unfold tripL_k0_t1 trip_k0_t1
  rfl

/-- The score scratch after the loop, as one function of its index. -/
def scoreG : S256x128.Idx → Elt F .f32 := fun y =>
  k0_pay4 v3 v7 v9 v12 v21 (chunkAt arg2 X (rowTrip (y 0))) (ix2 (rowIn (y 0)) (y 1))

theorem emb_row (j : Fin k0_t1_loop.trips) (x : (tripRect j).shape.Idx) :
    ((tripRect j).emb x 0).val = 64 * j.val + (x 0).val := by
  rw [Rect.emb_apply]
  show k0_off2 j 0 + 1 * (x 0).val = _
  rw [k0_off2_eq]
  show 64 * j.val + 1 * (x 0).val = _
  omega

theorem emb_col (j : Fin k0_t1_loop.trips) (x : (tripRect j).shape.Idx) :
    ((tripRect j).emb x 1).val = (x 1).val := by
  rw [Rect.emb_apply]
  show k0_off2 j 1 + 1 * (x 1).val = _
  rw [k0_off2_eq]
  show 0 + 1 * (x 1).val = _
  omega

/-- A trip's store agrees with the one function on the trip's rectangle. -/
theorem trip_agrees (j : Fin k0_t1_loop.trips) (x : (tripRect j).shape.Idx) :
    k0_pay4 v3 v7 v9 v12 v21 (chunkAt arg2 X j) x = scoreG arg2 v3 v7 v9 v12 v21 X ((tripRect j).emb x) := by
  have h0 := emb_row j x
  have h1 := emb_col j x
  have hx0 : (x 0).val < 64 := (x 0).isLt
  have e1 : rowTrip ((tripRect j).emb x 0) = j := Fin.ext (by
    show ((tripRect j).emb x 0).val / 64 = j.val
    rw [h0]; omega)
  have e2 : (ix2 (rowIn ((tripRect j).emb x 0)) ((tripRect j).emb x 1) : S64x128.Idx) = x := funext fun a => Fin.ext (by
    match a with
    | ⟨0, _⟩ =>
      show ((tripRect j).emb x 0).val % 64 = (x 0).val
      rw [h0]; omega
    | ⟨1, _⟩ => exact h1)
  unfold scoreG
  rw [e1, e2]

/-- Every piece of the trips before `n` agrees with the one function on its rectangle. -/
theorem pieces_agree : ∀ n, n ≤ k0_t1_loop.trips →
    ∀ p ∈ pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X n,
      ∀ x : p.1.shape.Idx, p.2 x = scoreG arg2 v3 v7 v9 v12 v21 X (p.1.emb x)
  | 0, _, p, hp, _ => by
    rw [pb_k0_t1] at hp
    exact absurd hp List.not_mem_nil
  | n + 1, hn, p, hp, x => by
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 v3 v7 v9 v12 v21 X ⟨n, hlt⟩
    rw [show (⟨n, hlt⟩ : Fin k0_t1_loop.trips).val + 1 = n + 1 from rfl, tripL_eq] at hs
    rw [hs] at hp
    rcases List.mem_append.mp hp with h | h
    · rw [List.mem_singleton] at h
      subst h
      exact trip_agrees arg2 v3 v7 v9 v12 v21 X ⟨n, hlt⟩ x
    · exact pieces_agree n (Nat.le_of_lt hlt) p h x

/-- Trip `j`'s piece is among the pieces of the trips before `n`, for every `n` past `j`. -/
theorem piece_mem : ∀ n, n ≤ k0_t1_loop.trips → ∀ j : Fin k0_t1_loop.trips, j.val < n →
    (⟨tripRect j, k0_pay4 v3 v7 v9 v12 v21 (chunkAt arg2 X j)⟩ : View.Piece (Elt F) S256x128 .f32)
      ∈ pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X n
  | 0, _, j, hj => absurd hj (Nat.not_lt_zero _)
  | n + 1, hn, j, hj => by
    have hlt : n < k0_t1_loop.trips := hn
    have hs := pb_k0_t1_succ (F := F) 𝒱 c bd i arg1 harg1 arg2 harg2 arg3 harg3 arg4 harg4 arg5 harg5 arg6 harg6 arg7 harg7 arg8 harg8 arg9 harg9 arg10 harg10 arg11 harg11 v3 v7 v9 v12 v21 X ⟨n, hlt⟩
    rw [show (⟨n, hlt⟩ : Fin k0_t1_loop.trips).val + 1 = n + 1 from rfl, tripL_eq] at hs
    rw [hs]
    by_cases h : j.val = n
    · have : j = ⟨n, hlt⟩ := Fin.ext h
      subst this
      exact List.mem_append_left _ (List.mem_singleton_self _)
    · exact List.mem_append_right _ (piece_mem n (Nat.le_of_lt hlt) j (by omega))

/-- The four trips' rectangles cover the scratch. -/
theorem pieces_cover (y : S256x128.Idx) :
    ∃ p ∈ pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X k0_t1_loop.trips, y ∈ p.1.set := by
  refine ⟨_, piece_mem 𝒱 bd c i arg1 harg1 arg2 harg2 arg3 harg3 arg4 harg4 arg5 harg5 arg6 harg6 arg7 harg7 arg8 harg8 arg9 harg9 arg10 harg10 arg11 harg11 v3 v7 v9 v12 v21 X k0_t1_loop.trips le_rfl (rowTrip (y 0)) (rowTrip (y 0)).isLt, ?_⟩
  show y ∈ (tripRect (rowTrip (y 0))).set
  rw [Rect.mem_set_unit]
  intro a
  rw [k0_off2_eq]
  have hy0 : (y 0).val < 256 := (y 0).isLt
  have hy1 : (y 1).val < 128 := (y 1).isLt
  match a with
  | ⟨0, _⟩ =>
    show 64 * ((y 0).val / 64) ≤ (y 0).val ∧ (y 0).val < 64 * ((y 0).val / 64) + 64
    omega
  | ⟨1, _⟩ =>
    show 0 ≤ (y 1).val ∧ (y 1).val < 0 + 128
    omega

/-- THE SCRATCH AFTER THE LOOP: the canonical contents of the four trips' stores is the one function. -/
theorem canon_pieces :
    View.canon (pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X k0_t1_loop.trips)
      = scoreG arg2 v3 v7 v9 v12 v21 X :=
  funext fun y => View.canon_apply_of_pieces (scoreG arg2 v3 v7 v9 v12 v21 X) _
    (pieces_agree 𝒱 bd c i arg1 harg1 arg2 harg2 arg3 harg3 arg4 harg4 arg5 harg5 arg6 harg6 arg7 harg7 arg8 harg8 arg9 harg9 arg10 harg10 arg11 harg11 v3 v7 v9 v12 v21 X k0_t1_loop.trips le_rfl) y
    (pieces_cover 𝒱 bd c i arg1 harg1 arg2 harg2 arg3 harg3 arg4 harg4 arg5 harg5 arg6 harg6 arg7 harg7 arg8 harg8 arg9 harg9 arg10 harg10 arg11 harg11 v3 v7 v9 v12 v21 X y)

theorem zero2 : (![0, 0] : Fin 2 → Nat) = fun _ => 0 := funext fun a => by
  match a with
  | ⟨0, _⟩ => rfl
  | ⟨1, _⟩ => rfl

/-- READ BACK WHOLE after the loop, the scratch is the one function, whatever it held before the loop: the four trips'
    stores cover it. -/
theorem read_after_loop (G : BufTy.Contents (Elt F) arg10.view.ty) :
    View.readAt (Elt F) arg10.view (Rect.unit (s := S256x128) ![0, 0] S256x128.size inb_S256x128_S256x128_0_0).toLoadRect
        (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 v3 v7 v9 v12 v21 X k0_t1_loop.trips))
      = scoreG arg2 v3 v7 v9 v12 v21 X := by
  rw [View.readAt_eq_ld, View.read_writes_eq_canon _ _ _ (pieces_cover 𝒱 bd c i arg1 harg1 arg2 harg2 arg3 harg3 arg4 harg4 arg5 harg5 arg6 harg6 arg7 harg7 arg8 harg8 arg9 harg9 arg10 harg10 arg11 harg11 v3 v7 v9 v12 v21 X),
    canon_pieces, View.ld_unit_zero (S := S256x128) zero2]

end Cert.Attn.Loop

end
-- ==== Proof.Spec.lean ====
/-
  Additive attention over a bank of knowledge rows, as ONE function of the eight argument arrays, on the extended reals.

  For a batch element, write  kn : [128, 256]  for its knowledge rows and  en : [256, 256]  for its encoder rows. Then

      keyProj k u  = (Σ_d kn k d · w2 d u) + b2 u                      the projected knowledge row k
      encProj t u  = (Σ_d en t d · w1 d u) + b1 u                      the projected encoder row t
      score t k    = (Σ_u tanh (encProj t u + keyProj k u) · v u 0) + bv 0
      rowMax t     = the maximum of  score t k  over k, taken from  -∞
      expo t k     = exp (score t k − rowMax t)
      denom t      = Σ_k expo t k
      weight t k   = expo t k / denom t                               the softmax over the knowledge rows
      ctx t d      = Σ_k weight t k · kn k d                          the attended knowledge row

  and the result at (b, t, d) is  ctx  of batch element b's two slices at (t, d).  Nothing here depends on how the rows t
  are grouped, nor on the order in which any sum is taken: the sums are sums over a finite index type in a commutative
  monoid, and the maximum is a fold of a commutative, associative operation.
-/
import Idealize.ShloMosaic.PureOps.Ideal
import Idealize.ShloMosaic.Lib.ValueIdx

noncomputable section

open scoped BigOperators

namespace Cert.Attn

open Idealize.ShloMosaic Idealize.ShloMosaic.ValueIdx

abbrev Arr3 (a b c : Nat) : Type := (⟨3, ![a, b, c]⟩ : Shape).Idx → EReal
abbrev Arr2 (a b : Nat) : Type := (⟨2, ![a, b]⟩ : Shape).Idx → EReal
abbrev Arr1 (a : Nat) : Type := (⟨1, ![a]⟩ : Shape).Idx → EReal

/-- The word of `-∞` the row maximum starts from. It is never evaluated: both programs start from the same word. -/
abbrev negInf : EReal := Ideal.ofBits .f32 0xFF800000#32

section Slice

variable (kn : Fin 128 → Fin 256 → EReal) (en : Fin 256 → Fin 256 → EReal)
  (w1 : Arr2 256 128) (b1 : Arr1 128) (w2 : Arr2 256 128) (b2 : Arr1 128) (v : Arr2 128 1) (bv : Arr1 1)

/-- Knowledge row `k` projected by `w2`, with its bias. -/
def keyProj (k u : Fin 128) : EReal := (∑ d : Fin 256, kn k d * w2 (ix2 d u)) + b2 (ix1 u)

/-- Encoder row `t` projected by `w1`, with its bias. -/
def encProj (t : Fin 256) (u : Fin 128) : EReal := (∑ d : Fin 256, en t d * w1 (ix2 d u)) + b1 (ix1 u)

/-- The additive score of encoder row `t` against knowledge row `k`. -/
def score (t : Fin 256) (k : Fin 128) : EReal :=
  (∑ u : Fin 128, Ideal.tanh (encProj en w1 b1 t u + keyProj kn w2 b2 k u) * v (ix2 u (0 : Fin 1))) + bv (ix1 (0 : Fin 1))

/-- The largest score of encoder row `t`, from `-∞`. -/
def rowMax (t : Fin 256) : EReal :=
  (Finset.univ : Finset (Fin 128)).fold max negInf (fun k => score kn en w1 b1 w2 b2 v bv t k)

/-- The exponential of a score below its row's maximum. -/
def expo (t : Fin 256) (k : Fin 128) : EReal :=
  Ideal.exp (score kn en w1 b1 w2 b2 v bv t k - rowMax kn en w1 b1 w2 b2 v bv t)

/-- The softmax denominator of encoder row `t`. -/
def denom (t : Fin 256) : EReal := ∑ k : Fin 128, expo kn en w1 b1 w2 b2 v bv t k

/-- The softmax weight of knowledge row `k` for encoder row `t`. -/
def weight (t : Fin 256) (k : Fin 128) : EReal :=
  Ideal.div (expo kn en w1 b1 w2 b2 v bv t k) (denom kn en w1 b1 w2 b2 v bv t)

/-- The attended knowledge row of encoder row `t`, at column `d`. -/
def ctx (t d : Fin 256) : EReal := ∑ k : Fin 128, weight kn en w1 b1 w2 b2 v bv t k * kn k d

end Slice

/-- Batch element `b`'s knowledge rows. -/
def knowAt (know : Arr3 16 128 256) (b : Fin 16) : Fin 128 → Fin 256 → EReal := fun k d => know (ix3 b k d)

/-- Batch element `b`'s encoder rows. -/
def encAt (enc : Arr3 16 256 256) (b : Fin 16) : Fin 256 → Fin 256 → EReal := fun t d => enc (ix3 b t d)

/-- The whole result: at (b, t, d) the attended knowledge row of batch element b's slices. -/
def context (know : Arr3 16 128 256) (enc : Arr3 16 256 256) (w1 : Arr2 256 128) (b1 : Arr1 128) (w2 : Arr2 256 128)
    (b2 : Arr1 128) (v : Arr2 128 1) (bv : Arr1 1) : Arr3 16 256 256 :=
  fun i => ctx (knowAt know (i 0)) (encAt enc (i 0)) w1 b1 w2 b2 v bv (i 1) (i 2)

theorem context_apply (know : Arr3 16 128 256) (enc : Arr3 16 256 256) (w1 : Arr2 256 128) (b1 : Arr1 128) (w2 : Arr2 256 128)
    (b2 : Arr1 128) (v : Arr2 128 1) (bv : Arr1 1) (b : Fin 16) (t d : Fin 256) :
    context know enc w1 b1 w2 b2 v bv (ix3 b t d) = ctx (knowAt know b) (encAt enc b) w1 b1 w2 b2 v bv t d := rfl

end Cert.Attn

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.LibUnitAxes.lean ====
/-
  Layout operations that add or fill a UNIT axis, read at an index written by coordinates: a rank-2 array given a unit
  middle axis, `[a, b] → [a, 1, b]`, and the two rank-3 broadcasts that fill a unit axis, `[a, 1, b] → [a, c, b]` (the
  middle one) and `[1, c, b] → [a, c, b]` (the leading one). Together they are an outer sum's two halves: a `[a, b]`
  array and a `[c, b]` array each spread over the other's leading axis before they are added. Program-independent: the
  statements are over literal-free shapes `⟨n, ![…]⟩` and any element type.
-/
import Idealize.ShloMosaic.Lib.Pipeline.Value
import Idealize.ShloMosaic.Lib.ValueIdx

noncomputable section

namespace Cert.Lib

open Idealize.ShloMosaic Idealize.ShloMosaic.ValueIdx

variable {α : Type}

/-- An `[a, b]` array cast to `[a, 1, b]` reads, at `(i, u, j)`, the operand at `(i, j)`: the unit axis does not move
    the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`: every index of the
    filled middle axis sees the one entry. -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`: every index of the
    filled leading axis sees the one slab. -/
theorem broadcastTo_1cb_acb_apply {a b c : ℕ} (x : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

end Cert.Lib

end
-- ==== Proof.Payloads.lean ====
/-
  The kernel body's five stored or carried values, each read at one entry, on the extended reals.

  The body works on one batch element: its knowledge block x0 : [1, 128, 256] and, sixty-four rows at a time, its
  encoder block. Written at an entry, with the unit leading axis dropped:
    * the projected knowledge rows        (Σ_d x0 k d · w2 d u) + b2 u                         — `keyProj`;
    * a chunk's scores, for the chunk's row r and knowledge row k,
        (Σ_u tanh ((Σ_d chunk r d · w1 d u) + b1 u + kp k u) · v u 0) + bv 0 ;
    * the exponentials below the row maximum and their row sums (the same sum at every column of a row);
    * the context  Σ_k (P t k / L t k) · x0 k d .
  Changes of float format are the identity on the extended reals, a matrix product into the zero accumulator is the
  plain sum over the shared axis, and a lane reduction by `add` is the row's sum. A layout step (a unit axis added,
  dropped or filled by a broadcast) reads one entry of its operand, named by coordinates; each payload is read from its
  outermost operation inwards, one such step at a time.
-/
import proofs.«411561_j9826885173721_3_alg».proof.Proof.Gen.KernelIdeal.Skeleton
import proofs.«411561_j9826885173721_3_alg».proof.Proof.Spec
import proofs.«411561_j9826885173721_3_alg».proof.Proof.LibRowProducts
import proofs.«411561_j9826885173721_3_alg».proof.Proof.LibKeepdims
import proofs.«411561_j9826885173721_3_alg».proof.Proof.LibUnitAxes
import Idealize.ShloMosaic.Lib.ValueLayout

noncomputable section

open scoped BigOperators

namespace Cert.Attn.Pay

open Idealize.ShloMosaic Idealize.ShloMosaic.ValueIdx Cert.KernelIdeal Cert.KernelIdeal.Gen Cert.Attn

/-- A knowledge block with its unit leading axis dropped. -/
def rows0 (x0 : Vec Ideal S1x128x256 .f32) : Fin 128 → Fin 256 → EReal := fun k d => x0 (ix3 (0 : Fin 1) k d)

/-! ## Layout and reduction steps read by coordinates -/

section Layout

variable {α : Type}

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to `[1, 1, a]` reads, at `(u, v, i)`, the vector at `i`: two unit axes in front do not move
    the row-major position. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]
    omega)

/-- A `[1, 1, b]` array broadcast to `[a, c, b]` reads, at `(i, k, j)`, the operand's one row at `j`. -/
theorem broadcastTo_11b_acb_apply {a b c : ℕ} (x : (⟨3, ![1, 1, b]⟩ : Shape).Idx → α)
    (h : (⟨3, ![1, 1, b]⟩ : Shape).Broadcasts ⟨3, ![a, c, b]⟩) (i : Fin a) (k : Fin c) (j : Fin b) :
    broadcastTo ⟨3, ![a, c, b]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- The one entry of a `[1]` vector, extracted at `[0]`. -/
theorem extractAt_1 (x : (⟨1, ![1]⟩ : Shape).Idx → α) (h : ∀ a, (![0] : Fin 1 → ℕ) a < (⟨1, ![1]⟩ : Shape).size a) :
    extractAt ![0] x h = x (ix1 (0 : Fin 1)) := by
  unfold extractAt
  refine congrArg x (funext fun ax => Fin.ext ?_)
  match ax with
  | ⟨0, _⟩ => rfl

end Layout

/-- A float `multi_reduction <add>` of an `[a, b, c]` array over its last axis, at `(i, j)`: the lane's sum. -/
theorem add_lanes_f32 {a b c : ℕ} (src : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ u : Fin c, src (ix3 i j u) := by
  refine (Ideal.multiReduction_add_single src 0x00000000#32 h hφ hacc (ix2 i j)).trans ?_
  show ∑ u : Fin c, src (h.lift (ix2 i j) u) = ∑ u : Fin c, src (ix3 i j u)
  refine Finset.sum_congr rfl fun u _ => congrArg src (funext fun ax => Fin.ext ?_)
  match ax with
  | ⟨0, _⟩ => rfl
  | ⟨1, _⟩ => rfl
  | ⟨2, _⟩ => rfl

/-! ## The three matrix products -/

/-- A plain product `[n, K] × [K, c]` into the zero accumulator, at `(r, j)`: the sum over the shared axis, whatever the
    operands' float formats. -/
theorem plain_matmul_apply {n K c : ℕ} {φ₁ φ₂ : FTy} {d : DotDims ⟨2, ![n, K]⟩ ⟨2, ![K, c]⟩ ⟨2, ![n, c]⟩}
    (h : Cert.Lib.RowProducts.Plain d) (prec : Option ContractPrecision)
    (l : FVec Ideal ⟨2, ![n, K]⟩ φ₁) (w : FVec Ideal ⟨2, ![K, c]⟩ φ₂) (r : Fin n) (j : Fin c) :
    matmul (F := Ideal) d prec l w (constant ⟨2, ![n, c]⟩ .f32 0x00000000#32) (ix2 r j)
      = ∑ q : Fin K, l (ix2 r q) * w (ix2 q j) :=
  (Ideal.matmul_constant_zero_apply d prec l w (ix2 r j)).trans (h.sum_eq l w (ix2 r j))

theorem plain_key : Cert.Lib.RowProducts.Plain (n := 128) (K := 256) (c := 128) dot_S128x256_S256x128_S128x128_1_0_0_1_n_n :=
  ⟨rfl, rfl, rfl, rfl, rfl, rfl⟩

theorem plain_enc : Cert.Lib.RowProducts.Plain (n := 64) (K := 256) (c := 128) dot_S64x256_S256x128_S64x128_1_0_0_1_n_n :=
  ⟨rfl, rfl, rfl, rfl, rfl, rfl⟩

theorem plain_ctx : Cert.Lib.RowProducts.Plain (n := 256) (K := 128) (c := 256) dot_S256x128_S128x256_S256x256_1_0_0_1_n_n :=
  ⟨rfl, rfl, rfl, rfl, rfl, rfl⟩

/-! ## The five payloads -/

/-- The projected knowledge rows the body stores into its second scratch. -/
theorem keyProj_entry (x0 : Vec Ideal S1x128x256 .f32) (x4 : Vec Ideal S256x128 .f32) (x5 : Vec Ideal S128 .f32)
    (k u : Fin 128) :
    k0_pay3 (F := Ideal) x0 x4 x5 (ix2 k u) = keyProj (rows0 x0) x4 x5 k u := by
  unfold k0_pay3 k0_pay2
  refine (congrFun (shapeCast_self _ _) (ix2 k u)).trans ?_
  refine congrArg₂ (· + ·) ?_ ?_
  · refine (plain_matmul_apply plain_key none _ _ k u).trans ?_
    refine Finset.sum_congr rfl fun d _ => congrArg₂ (· * ·) ?_ rfl
    exact shapeCast_1ab_ab_apply x0 _ k d
  · refine (broadcastTo_1b_ab_apply _ _ k u).trans ?_
    exact shapeCast_a_1a_apply x5 _ (0 : Fin 1) u

/-- One chunk's scores: the chunk's row `r` against knowledge row `k`, over projected knowledge rows `kp`. -/
theorem score_entry (x2 : Vec Ideal S256x128 .f32) (x3 : Vec Ideal S128 .f32) (x6 : Vec Ideal S128x1 .f32)
    (x7 : Vec Ideal S1 .f32) (kp : Vec Ideal S128x128 .f32) (ch : Vec Ideal S1x64x256 .f32) (r : Fin 64) (k : Fin 128) :
    k0_pay4 (F := Ideal) x2 x3 x6 x7 kp ch (ix2 r k)
      = (∑ u : Fin 128, Ideal.tanh (((∑ d : Fin 256, ch (ix3 (0 : Fin 1) r d) * x2 (ix2 d u)) + x3 (ix1 u)) + kp (ix2 k u))
            * x6 (ix2 u (0 : Fin 1))) + x7 (ix1 (0 : Fin 1)) := by
  unfold k0_pay4
  refine (congrFun (shapeCast_self _ _) (ix2 r k)).trans ?_
  refine congrArg₂ (· + ·) ?_ (extractAt_1 x7 _)
  refine (add_lanes_f32 _ _ _ _ r k).trans ?_
  refine Finset.sum_congr rfl fun u _ => ?_
  refine congrArg₂ (· * ·) (congrArg Ideal.tanh (congrArg₂ (· + ·) ?_ ?_)) ?_
  · refine (Cert.Lib.broadcastTo_a1b_acb_apply _ _ r k u).trans ?_
    refine (Cert.Lib.shapeCast_ab_a1b_apply _ _ r (0 : Fin 1) u).trans ?_
    refine congrArg₂ (· + ·) ?_ ?_
    · refine (plain_matmul_apply plain_enc none _ _ r u).trans ?_
      refine Finset.sum_congr rfl fun d _ => congrArg₂ (· * ·) ?_ rfl
      exact shapeCast_1ab_ab_apply ch _ r d
    · refine (broadcastTo_1b_ab_apply _ _ r u).trans ?_
      exact shapeCast_a_1a_apply x3 _ (0 : Fin 1) u
  · refine (Cert.Lib.broadcastTo_1cb_acb_apply _ _ r k u).trans ?_
    exact shapeCast_ab_1ab_apply kp _ (0 : Fin 1) k u
  · refine (broadcastTo_11b_acb_apply _ _ r k u).trans ?_
    refine (shapeCast_a_11a_apply _ _ (0 : Fin 1) (0 : Fin 1) u).trans ?_
    exact shapeCast_a1_a_apply x6 _ u

/-- The exponential of a score below its row's maximum. -/
theorem expo_entry (s : Vec Ideal S256x128 .f32) (t : Fin 256) (k : Fin 128) :
    k0_pay5 (F := Ideal) s (ix2 t k)
      = Ideal.exp (s (ix2 t k) - (Finset.univ : Finset (Fin 128)).fold max negInf (fun k' => s (ix2 t k'))) := by
  unfold k0_pay5
  refine congrArg (fun z => Ideal.exp (s (ix2 t k) - z)) ?_
  refine (Cert.Keepdims.broadcastTo_a1_ab_apply _ _ t k).trans ?_
  refine (Cert.Keepdims.shapeCast_a_a1_apply _ _ t (0 : Fin 1)).trans ?_
  exact Cert.Keepdims.max_rows_f32 s _ _ _ t

/-- The row sum of the exponentials, the same at every column of the row. -/
theorem denom_entry (s : Vec Ideal S256x128 .f32) (t : Fin 256) (k : Fin 128) :
    k0_pay6 (F := Ideal) s (ix2 t k) = ∑ k' : Fin 128, k0_pay5 (F := Ideal) s (ix2 t k') := by
  unfold k0_pay6
  refine (Cert.Keepdims.broadcastTo_a1_ab_apply _ _ t k).trans ?_
  refine (Cert.Keepdims.shapeCast_a_a1_apply _ _ t (0 : Fin 1)).trans ?_
  exact Cert.Keepdims.add_rows_f32 (k0_pay5 (F := Ideal) s) _ _ _ t

/-- The stored context block: the quotients' product with the knowledge rows. -/
theorem ctx_entry (x0 : Vec Ideal S1x128x256 .f32) (p l : Vec Ideal S256x128 .f32) (t d : Fin 256) :
    k0_pay1 (F := Ideal) (k0_pay2 (F := Ideal) x0) p l (ix3 (0 : Fin 1) t d)
      = ∑ k : Fin 128, Ideal.div (p (ix2 t k)) (l (ix2 t k)) * rows0 x0 k d := by
  unfold k0_pay1 k0_pay2
  refine (shapeCast_ab_1ab_apply _ _ (0 : Fin 1) t d).trans ?_
  refine (plain_matmul_apply plain_ctx none _ _ t d).trans ?_
  refine Finset.sum_congr rfl fun k _ => congrArg₂ (· * ·) rfl ?_
  exact shapeCast_1ab_ab_apply x0 _ k d

end Cert.Attn.Pay

end
-- ==== Proof.BodyValue.lean ====
/-
  What the kernel body stores for one batch element, as one function of the eight blocks it is handed, and that entry
  (t, d) of it is the specification's attended knowledge row.

  The body's score scratch holds, at row r, the scores of row  r mod 64  of the chunk of encoder rows  r / 64 ; a chunk
  is sixty-four consecutive rows of the encoder block, so row r of the scratch scores encoder row r itself, against the
  projected knowledge rows the body computed first. From the scratch come the exponentials below each row's maximum,
  their row sums, the quotients, and the product with the knowledge rows.
-/
import proofs.«411561_j9826885173721_3_alg».proof.Proof.Payloads
import proofs.«411561_j9826885173721_3_alg».proof.Proof.ScoreLoop

noncomputable section

open scoped BigOperators

namespace Cert.Attn.Body

open Idealize.ShloMosaic Idealize.ShloMosaic.ValueIdx Cert.KernelIdeal Cert.KernelIdeal.Gen Cert.Attn

/-- An encoder block with its unit leading axis dropped. -/
def rows1 (x1 : Vec Ideal S1x256x256 .f32) : Fin 256 → Fin 256 → EReal := fun t d => x1 (ix3 (0 : Fin 1) t d)

/-- Rows [64 j, 64 j + 64) of the encoder block: what the loop's trip `j` loads. -/
def chunk (x1 : Vec Ideal S1x256x256 .f32) (j : Fin k0_t1_loop.trips) : Vec Ideal S1x64x256 .f32 :=
  View.ld x1 (Rect.unit (s := S1x256x256) (k0_off1 j) S1x64x256.size (k0_off1_inb j))

/-- The score scratch after the loop. -/
def scores (x0 : Vec Ideal S1x128x256 .f32) (x1 : Vec Ideal S1x256x256 .f32) (x2 : Vec Ideal S256x128 .f32)
    (x3 : Vec Ideal S128 .f32) (x4 : Vec Ideal S256x128 .f32) (x5 : Vec Ideal S128 .f32) (x6 : Vec Ideal S128x1 .f32)
    (x7 : Vec Ideal S1 .f32) : Vec Ideal S256x128 .f32 := fun y =>
  k0_pay4 (F := Ideal) x2 x3 x6 x7 (k0_pay3 (F := Ideal) x0 x4 x5) (chunk x1 (Loop.rowTrip (y 0))) (ix2 (Loop.rowIn (y 0)) (y 1))

/-- The block the body stores. -/
def bodyOut (x0 : Vec Ideal S1x128x256 .f32) (x1 : Vec Ideal S1x256x256 .f32) (x2 : Vec Ideal S256x128 .f32)
    (x3 : Vec Ideal S128 .f32) (x4 : Vec Ideal S256x128 .f32) (x5 : Vec Ideal S128 .f32) (x6 : Vec Ideal S128x1 .f32)
    (x7 : Vec Ideal S1 .f32) : Vec Ideal S1x256x256 .f32 :=
  k0_pay1 (F := Ideal) (k0_pay2 (F := Ideal) x0) (k0_pay5 (F := Ideal) (scores x0 x1 x2 x3 x4 x5 x6 x7))
    (k0_pay6 (F := Ideal) (scores x0 x1 x2 x3 x4 x5 x6 x7))

/-- Row `r` of chunk `j` is encoder row `64 j + r`. -/
theorem chunk_entry (x1 : Vec Ideal S1x256x256 .f32) (j : Fin k0_t1_loop.trips) (r : Fin 64) (d : Fin 256)
    (t : Fin 256) (ht : t.val = 64 * j.val + r.val) :
    chunk x1 j (ix3 (0 : Fin 1) r d) = rows1 x1 t d := by
  unfold chunk rows1
  show x1 ((Rect.unit (s := S1x256x256) (k0_off1 j) S1x64x256.size (k0_off1_inb j)).idx (ix3 (0 : Fin 1) r d))
    = x1 (ix3 (0 : Fin 1) t d)
  refine congrArg x1 (funext fun a => Fin.ext ?_)
  rw [LoadRect.idx_apply]
  match a with
  | ⟨0, _⟩ =>
    show k0_off1 j 0 + 1 * 0 = 0
    rw [k0_off1_eq]
    rfl
  | ⟨1, _⟩ =>
    show k0_off1 j 1 + 1 * r.val = t.val
    rw [k0_off1_eq]
    show 64 * j.val + 1 * r.val = t.val
    omega
  | ⟨2, _⟩ =>
    show k0_off1 j 2 + 1 * d.val = d.val
    rw [k0_off1_eq]
    show 0 + 1 * d.val = d.val
    omega

/-- The scratch's entry (t, k) is the specification's score of encoder row t against knowledge row k. -/
theorem scores_entry (x0 : Vec Ideal S1x128x256 .f32) (x1 : Vec Ideal S1x256x256 .f32) (x2 : Vec Ideal S256x128 .f32)
    (x3 : Vec Ideal S128 .f32) (x4 : Vec Ideal S256x128 .f32) (x5 : Vec Ideal S128 .f32) (x6 : Vec Ideal S128x1 .f32)
    (x7 : Vec Ideal S1 .f32) (t : Fin 256) (k : Fin 128) :
    scores x0 x1 x2 x3 x4 x5 x6 x7 (ix2 t k) = score (Pay.rows0 x0) (rows1 x1) x2 x3 x4 x5 x6 x7 t k := by
  show k0_pay4 (F := Ideal) x2 x3 x6 x7 (k0_pay3 (F := Ideal) x0 x4 x5) (chunk x1 (Loop.rowTrip t)) (ix2 (Loop.rowIn t) k) = _
  refine (Pay.score_entry x2 x3 x6 x7 _ _ (Loop.rowIn t) k).trans ?_
  unfold score encProj
  refine congrArg (· + x7 (ix1 (0 : Fin 1))) (Finset.sum_congr rfl fun u _ => ?_)
  refine congrArg (fun z => Ideal.tanh z * x6 (ix2 u (0 : Fin 1))) ?_
  refine congrArg₂ (· + ·) (congrArg (· + x3 (ix1 u)) (Finset.sum_congr rfl fun d _ => ?_)) (Pay.keyProj_entry x0 x4 x5 k u)
  refine congrArg (· * x2 (ix2 d u)) ?_
  exact chunk_entry x1 (Loop.rowTrip t) (Loop.rowIn t) d t (by
    show t.val = 64 * (t.val / 64) + t.val % 64
    omega)

/-- The exponential the body takes of the scratch's entry (t, k) is the specification's. -/
theorem expo_scores (x0 : Vec Ideal S1x128x256 .f32) (x1 : Vec Ideal S1x256x256 .f32) (x2 : Vec Ideal S256x128 .f32)
    (x3 : Vec Ideal S128 .f32) (x4 : Vec Ideal S256x128 .f32) (x5 : Vec Ideal S128 .f32) (x6 : Vec Ideal S128x1 .f32)
    (x7 : Vec Ideal S1 .f32) (t : Fin 256) (k : Fin 128) :
    k0_pay5 (F := Ideal) (scores x0 x1 x2 x3 x4 x5 x6 x7) (ix2 t k)
      = expo (Pay.rows0 x0) (rows1 x1) x2 x3 x4 x5 x6 x7 t k := by
  refine (Pay.expo_entry _ t k).trans ?_
  unfold expo rowMax
  have hS : ∀ k' : Fin 128, scores x0 x1 x2 x3 x4 x5 x6 x7 (ix2 t k')
      = score (Pay.rows0 x0) (rows1 x1) x2 x3 x4 x5 x6 x7 t k' := fun k' => scores_entry x0 x1 x2 x3 x4 x5 x6 x7 t k'
  refine congrArg Ideal.exp (congrArg₂ (· - ·) (hS k) ?_)
  exact congrArg (fun f => (Finset.univ : Finset (Fin 128)).fold max negInf f) (funext hS)

/-- THE BODY'S BLOCK at (0, t, d) is the attended knowledge row of the two blocks' rows. -/
theorem bodyOut_entry (x0 : Vec Ideal S1x128x256 .f32) (x1 : Vec Ideal S1x256x256 .f32) (x2 : Vec Ideal S256x128 .f32)
    (x3 : Vec Ideal S128 .f32) (x4 : Vec Ideal S256x128 .f32) (x5 : Vec Ideal S128 .f32) (x6 : Vec Ideal S128x1 .f32)
    (x7 : Vec Ideal S1 .f32) (t d : Fin 256) :
    bodyOut x0 x1 x2 x3 x4 x5 x6 x7 (ix3 (0 : Fin 1) t d) = ctx (Pay.rows0 x0) (rows1 x1) x2 x3 x4 x5 x6 x7 t d := by
  unfold bodyOut
  refine (Pay.ctx_entry x0 _ _ t d).trans ?_
  unfold ctx weight
  refine Finset.sum_congr rfl fun k _ => congrArg (· * Pay.rows0 x0 k d) ?_
  refine congrArg₂ Ideal.div (expo_scores x0 x1 x2 x3 x4 x5 x6 x7 t k) ?_
  refine (Pay.denom_entry _ t k).trans ?_
  unfold denom
  exact Finset.sum_congr rfl fun k' _ => expo_scores x0 x1 x2 x3 x4 x5 x6 x7 t k'

end Cert.Attn.Body

end
-- ==== Proof.BodyRun.lean ====
/-
  The block the body's run leaves in the output window's staging buffer is `bodyOut` of the eight input blocks.

  The run's one store into that buffer covers it, so the buffer reads as the store's payload. The payload is written over
  what the run loaded: each input block read whole (the block itself), the projected knowledge rows read back whole from
  the scratch they were stored into (the stored rows), and the score scratch read back whole after the loop (one function
  of the loop's operands, because the four trips' stores cover it). With every load named for what it reads, the payload
  is `bodyOut`.
-/
import proofs.«411561_j9826885173721_3_alg».proof.Proof.KernelIdealFrame
import proofs.«411561_j9826885173721_3_alg».proof.Proof.BodyValue

set_option maxRecDepth 16384

noncomputable section

namespace Cert.Attn.Run

open Idealize.ShloMosaic Idealize.ShloMosaic.TcCoe Idealize.ShloMosaic.ValueIdx Idealize.SL.Sem
open Cert.KernelIdeal Cert.KernelIdeal.Gen Cert.KernelIdeal.GenP Cert.Attn

theorem zero1 : (![0] : Fin 1 → Nat) = fun _ => 0 := funext fun a => by
  match a with
  | ⟨0, _⟩ => rfl

theorem zero3 : (![0, 0, 0] : Fin 3 → Nat) = fun _ => 0 := funext fun a => by
  match a with
  | ⟨0, _⟩ => rfl
  | ⟨1, _⟩ => rfl
  | ⟨2, _⟩ => rfl

/-- The score scratch after the loop, over the blocks the run loaded, is the scores of the encoder block's rows. -/
theorem scoreG_eq (arg2 : Memref sig .tc .vmem S1x256x256 .f32) (harg2 : arg2.IsWhole) (x0 : Vec Ideal S1x128x256 .f32) (x1 : Vec Ideal S1x256x256 .f32) (x2 : Vec Ideal S256x128 .f32) (x3 : Vec Ideal S128 .f32) (x4 : Vec Ideal S256x128 .f32) (x5 : Vec Ideal S128 .f32) (x6 : Vec Ideal S128x1 .f32) (x7 : Vec Ideal S1 .f32) :
    Loop.scoreG (F := Ideal) arg2 x2 x3 x6 x7 (k0_pay3 (F := Ideal) x0 x4 x5) (harg2.unread x1)
      = Body.scores x0 x1 x2 x3 x4 x5 x6 x7 := by
  funext y
  unfold Loop.scoreG Body.scores Loop.chunkAt Body.chunk
  rw [View.readAt_eq_ld, harg2.read_unread]

/-- THE STORED BLOCK: what the run leaves in the output's staging buffer is `bodyOut` of the input blocks. -/
theorem out0_A_8_eq (c : Dev nD) (i : grid0.Coords) (arg1 : Memref sig .tc .vmem S1x128x256 .f32) (harg1 : arg1.IsWhole) (arg2 : Memref sig .tc .vmem S1x256x256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128x1 .f32) (harg7 : arg7.IsWhole) (arg8 : Memref sig .tc .vmem S1 .f32) (harg8 : arg8.IsWhole) (arg9 : Memref sig .tc .vmem S1x256x256 .f32) (harg9 : arg9.IsWhole) (arg10 : Memref sig .tc .vmem S256x128 .f32) (harg10 : arg10.IsWhole) (arg11 : Memref sig .tc .vmem S128x128 .f32) (harg11 : arg11.IsWhole) (x0 : Vec Ideal S1x128x256 .f32) (x1 : Vec Ideal S1x256x256 .f32) (x2 : Vec Ideal S256x128 .f32) (x3 : Vec Ideal S128 .f32) (x4 : Vec Ideal S256x128 .f32) (x5 : Vec Ideal S128 .f32) (x6 : Vec Ideal S128x1 .f32) (x7 : Vec Ideal S1 .f32) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 = Body.bodyOut x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  rw [View.canon_unit_zero (S := S1x256x256) zero3]
  unfold kernelRun0_A.sl.r kernelRun0_A.sl.v21 kernelRun0_A.sl.HS1_1
  simp only [View.readAt_eq_ld, harg1.read_unread, harg3.read_unread, harg4.read_unread, harg5.read_unread,
    harg6.read_unread, harg7.read_unread, harg8.read_unread,
    View.ld_unit_zero (S := S1x128x256) zero3, View.ld_unit_zero (S := S256x128) Loop.zero2,
    View.ld_unit_zero (S := S128) zero1, View.ld_unit_zero (S := S128x1) Loop.zero2, View.ld_unit_zero (S := S1) zero1,
    View.readCov_unit_zero (S := S128x128) _ Loop.zero2]
  rw [scoreG_eq]
  rfl

end Cert.Attn.Run

end
-- ==== Proof.Blocks.lean ====
/-
  How the pipeline's blocks sit in the arrays. The grid has sixteen points, one per batch element. At point t the
  knowledge window's block is batch element t's [1, 128, 256] slab of the knowledge array, the encoder window's block is
  batch element t's [1, 256, 256] slab of the encoder array, the six parameter windows' blocks are their whole arrays, and
  the output window's block is batch element t's [1, 256, 256] slab of the result: the sixteen output blocks tile the
  result array, every point writing its own back.
-/
import proofs.«411561_j9826885173721_3_alg».proof.Proof.Gen.KernelIdeal.Frame.Runs
import proofs.«411561_j9826885173721_3_alg».proof.Proof.BodyValue
import Idealize.ShloMosaic.Lib.Pipeline.Value

set_option maxRecDepth 16384

noncomputable section

namespace Cert.Attn.Blocks

open Idealize.ShloMosaic Idealize.ShloMosaic.TcCoe Idealize.ShloMosaic.ValueIdx Idealize.SL.Sem
open Cert.KernelIdeal Cert.KernelIdeal.Gen Cert.Attn

variable (m : (ℓ : Loc nD τ sig) → Buf (Elt Ideal) ℓ)

/-- The batch element a grid point works on. -/
def batchOf (t : Fin cfg0.N) : Fin 16 := ⟨t.val, lt_of_lt_of_eq t.isLt N_0⟩

/-- The eight blocks at a point, each at its literal type. -/
abbrev blk0 (c : Dev nD) (t : Fin cfg0.N) : Vec Ideal S1x128x256 .f32 := iblk m c 0 t
abbrev blk1 (c : Dev nD) (t : Fin cfg0.N) : Vec Ideal S1x256x256 .f32 := iblk m c 1 t
abbrev blk2 (c : Dev nD) (t : Fin cfg0.N) : Vec Ideal S256x128 .f32 := iblk m c 2 t
abbrev blk3 (c : Dev nD) (t : Fin cfg0.N) : Vec Ideal S128 .f32 := iblk m c 3 t
abbrev blk4 (c : Dev nD) (t : Fin cfg0.N) : Vec Ideal S256x128 .f32 := iblk m c 4 t
abbrev blk5 (c : Dev nD) (t : Fin cfg0.N) : Vec Ideal S128 .f32 := iblk m c 5 t
abbrev blk6 (c : Dev nD) (t : Fin cfg0.N) : Vec Ideal S128x1 .f32 := iblk m c 6 t
abbrev blk7 (c : Dev nD) (t : Fin cfg0.N) : Vec Ideal S1 .f32 := iblk m c 7 t

/-- The eight argument arrays as the region finds them, each at its literal type. -/
abbrev arr0 (c : Dev nD) : Vec Ideal S16x128x256 .f32 := V m c main_arg0
abbrev arr1 (c : Dev nD) : Vec Ideal S16x256x256 .f32 := V m c main_arg1
abbrev arr2 (c : Dev nD) : Vec Ideal S256x128 .f32 := V m c main_arg2
abbrev arr3 (c : Dev nD) : Vec Ideal S128 .f32 := V m c main_arg3
abbrev arr4 (c : Dev nD) : Vec Ideal S256x128 .f32 := V m c main_arg4
abbrev arr5 (c : Dev nD) : Vec Ideal S128 .f32 := V m c main_arg5
abbrev arr6 (c : Dev nD) : Vec Ideal S128x1 .f32 := V m c main_arg6
abbrev arr7 (c : Dev nD) : Vec Ideal S1 .f32 := V m c main_arg7

/-- The printed index maps, decided over the sixteen grid points: the knowledge, encoder and output windows' block index is
    the point on the batch axis and zero on the other two; the six parameter windows' block indices are zero. -/
theorem idx_facts0 : ∀ t : Fin cfg0.N, win0_0.index t (0 : Fin 3) = t.val ∧ win0_0.index t (1 : Fin 3) = 0
    ∧ win0_0.index t (2 : Fin 3) = 0 :=
  (by decide +kernel : ∀ t : Fin grid0.N, _)
theorem idx_facts1 : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx_facts8 : ∀ t : Fin cfg0.N, win0_8.index t (0 : Fin 3) = t.val ∧ win0_8.index t (1 : Fin 3) = 0
    ∧ win0_8.index t (2 : Fin 3) = 0 :=
  (by decide +kernel : ∀ t : Fin grid0.N, _)
theorem idx_facts2 : ∀ t : Fin cfg0.N, win0_2.index t (0 : Fin 2) = 0 ∧ win0_2.index t (1 : Fin 2) = 0 :=
  (by decide +kernel : ∀ t : Fin grid0.N, _)
theorem idx_facts3 : ∀ t : Fin cfg0.N, win0_3.index t (0 : Fin 1) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)
theorem idx_facts5 : ∀ t : Fin cfg0.N, win0_5.index t (0 : Fin 1) = 0 :=
  (by decide +kernel : ∀ t : Fin grid0.N, _)
theorem idx_facts6 : ∀ t : Fin cfg0.N, win0_6.index t (0 : Fin 2) = 0 ∧ win0_6.index t (1 : Fin 2) = 0 :=
  (by decide +kernel : ∀ t : Fin grid0.N, _)
theorem idx_facts7 : ∀ t : Fin cfg0.N, win0_7.index t (0 : Fin 1) = 0 :=
  (by decide +kernel : ∀ t : Fin grid0.N, _)

/-- The knowledge block's rows are batch element t's knowledge rows. -/
theorem know_rows (c : Dev nD) (t : Fin cfg0.N) : Pay.rows0 (blk0 m c t) = knowAt (arr0 m c) (batchOf t) := by
  funext k d
  show V m c main_arg0 (((cfg0.win 0).blk t).view.emb (ix3 (0 : Fin 1) k d)) = V m c main_arg0 (ix3 (batchOf t) k d)
  refine congrArg (V m c main_arg0) (funext fun a => Fin.ext ?_)
  obtain ⟨e0, e1, e2⟩ := idx_facts0 t
  match a with
  | ⟨0, _⟩ => show win0_0.index t (0 : Fin 3) * 1 + 1 * 0 = t.val; omega
  | ⟨1, _⟩ => show win0_0.index t (1 : Fin 3) * 128 + 1 * k.val = k.val; omega
  | ⟨2, _⟩ => show win0_0.index t (2 : Fin 3) * 256 + 1 * d.val = d.val; omega

/-- The encoder block's rows are batch element t's encoder rows. -/
theorem enc_rows (c : Dev nD) (t : Fin cfg0.N) : Body.rows1 (blk1 m c t) = encAt (arr1 m c) (batchOf t) := by
  funext r d
  show V m c main_arg1 (((cfg0.win 1).blk t).view.emb (ix3 (0 : Fin 1) r d)) = V m c main_arg1 (ix3 (batchOf t) r d)
  refine congrArg (V m c main_arg1) (funext fun a => Fin.ext ?_)
  obtain ⟨e0, e1, e2⟩ := idx_facts1 t
  match a with
  | ⟨0, _⟩ => show win0_1.index t (0 : Fin 3) * 1 + 1 * 0 = t.val; omega
  | ⟨1, _⟩ => show win0_1.index t (1 : Fin 3) * 256 + 1 * r.val = r.val; omega
  | ⟨2, _⟩ => show win0_1.index t (2 : Fin 3) * 256 + 1 * d.val = d.val; omega

/-- The six parameter blocks are their whole arrays. -/
theorem blk2_eq (c : Dev nD) (t : Fin cfg0.N) : blk2 m c t = arr2 m c := by
  funext y
  show V m c main_arg2 (((cfg0.win 2).blk t).view.emb y) = V m c main_arg2 y
  refine congrArg (V m c main_arg2) (funext fun a => Fin.ext ?_)
  obtain ⟨e0, e1⟩ := idx_facts2 t
  match a with
  | ⟨0, _⟩ => show win0_2.index t (0 : Fin 2) * 256 + 1 * (y 0).val = (y 0).val; omega
  | ⟨1, _⟩ => show win0_2.index t (1 : Fin 2) * 128 + 1 * (y 1).val = (y 1).val; omega
theorem blk3_eq (c : Dev nD) (t : Fin cfg0.N) : blk3 m c t = arr3 m c := by
  funext y
  show V m c main_arg3 (((cfg0.win 3).blk t).view.emb y) = V m c main_arg3 y
  refine congrArg (V m c main_arg3) (funext fun a => Fin.ext ?_)
  have e0 := idx_facts3 t
  match a with
  | ⟨0, _⟩ => show win0_3.index t (0 : Fin 1) * 128 + 1 * (y 0).val = (y 0).val; omega
theorem blk4_eq (c : Dev nD) (t : Fin cfg0.N) : blk4 m c t = arr4 m c := by
  funext y
  show V m c main_arg4 (((cfg0.win 4).blk t).view.emb y) = V m c main_arg4 y
  refine congrArg (V m c main_arg4) (funext fun a => Fin.ext ?_)
  obtain ⟨e0, e1⟩ := idx_facts4 t
  match a with
  | ⟨0, _⟩ => show win0_4.index t (0 : Fin 2) * 256 + 1 * (y 0).val = (y 0).val; omega
  | ⟨1, _⟩ => show win0_4.index t (1 : Fin 2) * 128 + 1 * (y 1).val = (y 1).val; omega
theorem blk5_eq (c : Dev nD) (t : Fin cfg0.N) : blk5 m c t = arr5 m c := by
  funext y
  show V m c main_arg5 (((cfg0.win 5).blk t).view.emb y) = V m c main_arg5 y
  refine congrArg (V m c main_arg5) (funext fun a => Fin.ext ?_)
  have e0 := idx_facts5 t
  match a with
  | ⟨0, _⟩ => show win0_5.index t (0 : Fin 1) * 128 + 1 * (y 0).val = (y 0).val; omega
theorem blk6_eq (c : Dev nD) (t : Fin cfg0.N) : blk6 m c t = arr6 m c := by
  funext y
  show V m c main_arg6 (((cfg0.win 6).blk t).view.emb y) = V m c main_arg6 y
  refine congrArg (V m c main_arg6) (funext fun a => Fin.ext ?_)
  obtain ⟨e0, e1⟩ := idx_facts6 t
  match a with
  | ⟨0, _⟩ => show win0_6.index t (0 : Fin 2) * 128 + 1 * (y 0).val = (y 0).val; omega
  | ⟨1, _⟩ => show win0_6.index t (1 : Fin 2) * 1 + 1 * (y 1).val = (y 1).val; omega
theorem blk7_eq (c : Dev nD) (t : Fin cfg0.N) : blk7 m c t = arr7 m c := by
  funext y
  show V m c main_arg7 (((cfg0.win 7).blk t).view.emb y) = V m c main_arg7 y
  refine congrArg (V m c main_arg7) (funext fun a => Fin.ext ?_)
  have e0 := idx_facts7 t
  match a with
  | ⟨0, _⟩ => show win0_7.index t (0 : Fin 1) * 1 + 1 * (y 0).val = (y 0).val; omega

/-- Entry (0, r, d) of the output block at point t is entry (t, r, d) of the result array. -/
theorem out_emb (t : Fin cfg0.N) (r d : Fin 256) :
    ((cfg0.win 8).blk t).view.emb (ix3 (0 : Fin 1) r d : S1x256x256.Idx) = (ix3 (batchOf t) r d : S16x256x256.Idx) := by
  funext a; apply Fin.ext
  obtain ⟨e0, e1, e2⟩ := idx_facts8 t
  match a with
  | ⟨0, _⟩ => show win0_8.index t (0 : Fin 3) * 1 + 1 * 0 = t.val; omega
  | ⟨1, _⟩ => show win0_8.index t (1 : Fin 3) * 256 + 1 * r.val = r.val; omega
  | ⟨2, _⟩ => show win0_8.index t (2 : Fin 3) * 256 + 1 * d.val = d.val; omega

/-- An index of the result array is in point t's output block iff each coordinate is in the block's range on its axis. -/
theorem mem_out_blk (t : Fin cfg0.N) (i : S16x256x256.Idx) :
    i ∈ ((cfg0.win 8).blk t).view.set ↔ ∀ a : Fin 3, win0_8.index t a * S1x256x256.size a ≤ (i a).val
      ∧ (i a).val < win0_8.index t a * S1x256x256.size a + S1x256x256.size a := by
  show i ∈ ((View.whole main_v0).slice (win0_8.rect t)).set ↔ _
  rw [View.set_slice_whole, Rect.mem_set_unit]
  exact Iff.rfl

/-- The sixteen output blocks cover the result array, and every point writes its block back. -/
theorem out_cover (i : S16x256x256.Idx) :
    ∃ t : Fin cfg0.N, (cfg0.win 8).flush t = true ∧ i ∈ ((cfg0.win 8).blk t).view.set := by
  have hN : cfg0.N = 16 := N_0
  have hi0 : (i 0).val < 16 := (i 0).isLt
  have hi1 : (i 1).val < 256 := (i 1).isLt
  have hi2 : (i 2).val < 256 := (i 2).isLt
  have ht : (i 0).val < cfg0.N := by rw [hN]; exact hi0
  refine ⟨⟨(i 0).val, ht⟩, flush0_8 _, ?_⟩
  rw [mem_out_blk]
  obtain ⟨e0, e1, e2⟩ := idx_facts8 ⟨(i 0).val, ht⟩
  intro a
  match a with
  | ⟨0, _⟩ =>
    show win0_8.index ⟨(i 0).val, ht⟩ (0 : Fin 3) * 1 ≤ (i 0).val ∧ (i 0).val < win0_8.index ⟨(i 0).val, ht⟩ (0 : Fin 3) * 1 + 1
    have e0' : win0_8.index ⟨(i 0).val, ht⟩ (0 : Fin 3) = (i 0).val := e0
    omega
  | ⟨1, _⟩ =>
    show win0_8.index ⟨(i 0).val, ht⟩ (1 : Fin 3) * 256 ≤ (i 1).val ∧ (i 1).val < win0_8.index ⟨(i 0).val, ht⟩ (1 : Fin 3) * 256 + 256
    omega
  | ⟨2, _⟩ =>
    show win0_8.index ⟨(i 0).val, ht⟩ (2 : Fin 3) * 256 ≤ (i 2).val ∧ (i 2).val < win0_8.index ⟨(i 0).val, ht⟩ (2 : Fin 3) * 256 + 256
    omega

end Cert.Attn.Blocks

end
-- ==== Proof.KernelValue.lean ====
/-
  The kernel's result array after its run is the specification's `context` of the eight argument arrays.

  At grid point t the body is handed batch element t's knowledge and encoder slabs and the six parameter arrays whole,
  and the block it writes back is `bodyOut` of those: entry (0, r, d) of it is the attended knowledge row of batch
  element t at (r, d), which is entry (t, r, d) of `context`. So every point writes back its block of `context`; the
  sixteen blocks tile the result array; hence the array ends holding `context`, with the arguments as they were.
-/
import proofs.«411561_j9826885173721_3_alg».proof.Proof.KernelIdealValue
import proofs.«411561_j9826885173721_3_alg».proof.Proof.BodyRun
import proofs.«411561_j9826885173721_3_alg».proof.Proof.Blocks

set_option maxRecDepth 16384

noncomputable section

namespace Cert.Attn.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.ValueP Cert.Attn Cert.Attn.Blocks

variable (m : (ℓ : Loc nD τ sig) → Buf (Elt Ideal) ℓ) (ρ : Dev nD → PrngReg)

/-- The result, as a function of the argument arrays as the region finds them. -/
abbrev result (c : Dev nD) : Vec Ideal S16x256x256 .f32 := context (arr0 m c) (arr1 m c) (arr2 m c) (arr3 m c) (arr4 m c) (arr5 m c) (arr6 m c) (arr7 m c)

/-- The row and the column of an index of a [1, 256, 256] block. -/
def rowOf (j : S1x256x256.Idx) : Fin 256 := j 1
def colOf (j : S1x256x256.Idx) : Fin 256 := j 2

/-- An index of a [1, 256, 256] block by its coordinates: the leading one is zero. -/
theorem blockIdx_eq (j : S1x256x256.Idx) : j = ix3 (0 : Fin 1) (rowOf j) (colOf j) := by
  funext a
  match a with
  | ⟨0, _⟩ =>
    have h : (j 0).val < 1 := (j 0).isLt
    exact Fin.ext (by show (j 0).val = 0; omega)
  | ⟨1, _⟩ => rfl
  | ⟨2, _⟩ => rfl

/-- The body's block at point t, entry by entry, is batch element t's part of the result. -/
theorem body_at (c : Dev nD) (t : Fin cfg0.N) (j : S1x256x256.Idx) :
    Body.bodyOut (blk0 m c t) (blk1 m c t) (blk2 m c t) (blk3 m c t) (blk4 m c t) (blk5 m c t) (blk6 m c t) (blk7 m c t) j = result m c (ix3 (batchOf t) (rowOf j) (colOf j)) := by
  refine (congrArg (Body.bodyOut (blk0 m c t) (blk1 m c t) (blk2 m c t) (blk3 m c t) (blk4 m c t) (blk5 m c t) (blk6 m c t) (blk7 m c t)) (blockIdx_eq j)).trans ?_
  rw [Body.bodyOut_entry, know_rows, enc_rows, blk2_eq, blk3_eq, blk4_eq, blk5_eq, blk6_eq, blk7_eq]
  rfl

/-- Where the output block's entries sit in the result array. -/
theorem emb_at (t : Fin cfg0.N) (j : S1x256x256.Idx) :
    ((cfg0.win 8).blk t).view.emb j = (ix3 (batchOf t) (rowOf j) (colOf j) : S16x256x256.Idx) :=
  (congrArg ((cfg0.win 8).blk t).view.emb (blockIdx_eq j)).trans (out_emb t (rowOf j) (colOf j))

/-- WHAT POINT t WRITES BACK is block t of the result. -/
theorem flushed_eq (c : Dev nD) (t : Fin cfg0.N) :
    (dats m 0 c).flushed 8 t = ((cfg0.win 8).blk t).view.read (Elt Ideal) (result m c) := by
  rw [flushed8_A]
  funext j
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (blk0 m c t) (blk1 m c t) (blk2 m c t) (blk3 m c t) (blk4 m c t) (blk5 m c t) (blk6 m c t) (blk7 m c t) j = result m c (((cfg0.win 8).blk t).view.emb j)
  refine (congrFun (Run.out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (blk0 m c t) (blk1 m c t) (blk2 m c t) (blk3 m c t) (blk4 m c t) (blk5 m c t) (blk6 m c t) (blk7 m c t)) j).trans ?_
  rw [emb_at]
  exact body_at m c t j

/-- THE RESULT ARRAY after the run. -/
theorem final (c : Dev nD) : (dats m 0 c).arrAt 8 cfg0.N = result m c :=
  (dats m 0 c).arrAt_eq_of_cover 8 (result m c) (fun t _ => flushed_eq m c t) out_cover

/-- The kernel's run: the result array ends at `context` of the arguments, the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Attn.Final

end
-- ==== Proof.RefSide.lean ====
/-
  The reference program's result is the attended knowledge row of the specification, entry by entry.

  The reference projects all encoder rows and all knowledge rows at once, spreads the two projections over a
  [16, 256, 128, 128] array, takes tanh of their sum, contracts the last axis against `v`, adds the bias, and takes
  the softmax over the knowledge axis: the row maximum from `-∞` (then once more against `-∞`, which changes
  nothing), the exponentials of the differences, their sum from zero, the quotient. A sum over the trailing unit axis
  and a batched product with the knowledge rows give the result. Entry by entry each of these is the specification's
  term: a product with no accumulator is the plain sum over the shared axis, a sum from zero is the sum, and the
  larger of `-∞`'s word and a maximum already taken from that word is that maximum.
-/
import proofs.«411561_j9826885173721_3_alg».proof.Proof.Gen.ReferenceIdeal.Read
import proofs.«411561_j9826885173721_3_alg».proof.Proof.Spec
import proofs.«411561_j9826885173721_3_alg».proof.Proof.LibKeepdims

noncomputable section

open scoped BigOperators

namespace Cert.Attn.Ref

open Idealize.ShloMosaic Idealize.ShloMosaic.ValueIdx Cert.ReferenceIdeal Cert.ReferenceIdeal.Gen Cert.ReferenceIdeal.Read Cert.Attn

/-- The larger of a fold's starting value and the fold of `max` from that value is the fold. -/
theorem max_start_fold {ι : Type} (s : Finset ι) (f : ι → EReal) (a : EReal) :
    max a (s.fold max a f) = s.fold max a f :=
  max_eq_right ((Finset.le_fold_max a).mpr (Or.inl le_rfl))

section Stages

variable (x0 : (⟨S16x128x256, .f32⟩ : BufTy).Contents (Elt Ideal)) (x1 : (⟨S16x256x256, .f32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal))

/-- The projected encoder row with its bias, at batch element `b`, row `t`, column `u`. -/
theorem encProj_at (b : Fin 16) (t : Fin 256) (u : Fin 128) :
    val_main_v3 (F := Ideal) x1 x2 x3 (ix3 b t u) = encProj (encAt x1 b) x2 x3 t u := by
  rw [val_main_v3_apply, val_main_v0_apply, val_main_v2_apply, val_main_v1_apply]
  have e1 : ∀ d : Fin 256, lidx_main_v0 (ix3 b t u) d = ix3 b t d := fun d =>
    funext fun a => by match a with | ⟨0, _⟩ => rfl | ⟨1, _⟩ => rfl | ⟨2, _⟩ => rfl
  have e2 : ∀ d : Fin 256, ridx_main_v0 (ix3 b t u) d = ix2 d u := fun d =>
    funext fun a => by match a with | ⟨0, _⟩ => rfl | ⟨1, _⟩ => rfl
  have e3 : idx_main_v1 (idx_main_v2 (ix3 b t u)) = ix1 u :=
    funext fun a => by match a with | ⟨0, _⟩ => rfl
  simp only [e1, e2, e3]
  rfl

/-- The projected knowledge row with its bias, at batch element `b`, row `k`, column `u`. -/
theorem keyProj_at (b : Fin 16) (k u : Fin 128) :
    val_main_v8 (F := Ideal) x0 x4 x5 (ix3 b k u) = keyProj (knowAt x0 b) x4 x5 k u := by
  rw [val_main_v8_apply, val_main_v5_apply, val_main_v7_apply, val_main_v6_apply]
  have e1 : ∀ d : Fin 256, lidx_main_v5 (ix3 b k u) d = ix3 b k d := fun d =>
    funext fun a => by match a with | ⟨0, _⟩ => rfl | ⟨1, _⟩ => rfl | ⟨2, _⟩ => rfl
  have e2 : ∀ d : Fin 256, ridx_main_v5 (ix3 b k u) d = ix2 d u := fun d =>
    funext fun a => by match a with | ⟨0, _⟩ => rfl | ⟨1, _⟩ => rfl
  have e3 : idx_main_v6 (idx_main_v7 (ix3 b k u)) = ix1 u :=
    funext fun a => by match a with | ⟨0, _⟩ => rfl
  simp only [e1, e2, e3]
  rfl

/-- The two projections spread over `[16, 256, 128, 128]` and added, under `tanh`: at `(b, t, k, u)` the encoder
    row `t`'s and the knowledge row `k`'s projections at column `u`. -/
theorem tanh_at (b : Fin 16) (t : Fin 256) (k u : Fin 128) :
    val_main_v13 (F := Ideal) x0 x1 x2 x3 x4 x5 (ix4 b t k u)
      = Ideal.tanh (encProj (encAt x1 b) x2 x3 t u + keyProj (knowAt x0 b) x4 x5 k u) := by
  rw [val_main_v13_apply, val_main_v12_apply, val_main_v10_apply, val_main_v4_apply, val_main_v11_apply, val_main_v9_apply]
  have e1 : idx_main_v4 (idx_main_v10 (ix4 b t k u)) = ix3 b t u :=
    funext fun a => by match a with | ⟨0, _⟩ => rfl | ⟨1, _⟩ => rfl | ⟨2, _⟩ => rfl
  have e2 : idx_main_v9 (idx_main_v11 (ix4 b t k u)) = ix3 b k u :=
    funext fun a => by match a with | ⟨0, _⟩ => rfl | ⟨1, _⟩ => rfl | ⟨2, _⟩ => rfl
  rw [e1, e2, encProj_at, keyProj_at]
  rfl

/-- The score: the contraction of the last axis against `v`, plus the bias. -/
theorem score_at (b : Fin 16) (t : Fin 256) (k : Fin 128) :
    val_main_v17 (F := Ideal) x0 x1 x2 x3 x4 x5 x6 x7 (ix4 b t k (0 : Fin 1))
      = score (knowAt x0 b) (encAt x1 b) x2 x3 x4 x5 x6 x7 t k := by
  rw [val_main_v17_apply, val_main_v14_apply, val_main_v16_apply, val_main_v15_apply]
  have e1 : ∀ u : Fin 128, lidx_main_v14 (ix4 b t k (0 : Fin 1)) u = ix4 b t k u := fun u =>
    funext fun a => by match a with | ⟨0, _⟩ => rfl | ⟨1, _⟩ => rfl | ⟨2, _⟩ => rfl | ⟨3, _⟩ => rfl
  have e2 : ∀ u : Fin 128, ridx_main_v14 (ix4 b t k (0 : Fin 1)) u = ix2 u (0 : Fin 1) := fun u =>
    funext fun a => by match a with | ⟨0, _⟩ => rfl | ⟨1, _⟩ => rfl
  have e3 : idx_main_v15 (idx_main_v16 (ix4 b t k (0 : Fin 1))) = ix1 (0 : Fin 1) :=
    funext fun a => by match a with | ⟨0, _⟩ => rfl
  simp only [e1, e2, e3, tanh_at]
  rfl

/-- The row maximum: the fold of `max` over the knowledge axis from `-∞`'s word, then once more against that word. -/
theorem rowMax_at (b : Fin 16) (t : Fin 256) :
    val_main_v20 (F := Ideal) x0 x1 x2 x3 x4 x5 x6 x7 (ix3 b t (0 : Fin 1))
      = rowMax (knowAt x0 b) (encAt x1 b) x2 x3 x4 x5 x6 x7 t := by
  have h : S16x256x128x1.Reduces [2] S16x256x1 := by decide
  have hfold : val_main_v18 (F := Ideal) x0 x1 x2 x3 x4 x5 x6 x7 (ix3 b t (0 : Fin 1))
      = rowMax (knowAt x0 b) (encAt x1 b) x2 x3 x4 x5 x6 x7 t := by
    unfold val_main_v18
    refine (Host.reduce_eq_fold_single (FloatOps.maximumf (F := Ideal) (φ := .f32)) _ _
      reducesTo_S16x256x128x1_S16x256x1_d2 h h_S_ _).trans ?_
    show (Finset.univ : Finset (Fin 128)).fold max negInf
        (fun k : Fin 128 => val_main_v17 (F := Ideal) x0 x1 x2 x3 x4 x5 x6 x7 (h.lift (ix3 b t (0 : Fin 1)) k)) = _
    have e : ∀ k : Fin 128, h.lift (ix3 b t (0 : Fin 1)) k = ix4 b t k (0 : Fin 1) := fun k => funext fun a => Fin.ext (by
      match a with | ⟨0, _⟩ => rfl | ⟨1, _⟩ => rfl | ⟨2, _⟩ => rfl | ⟨3, _⟩ => rfl)
    unfold rowMax
    refine congrArg (fun f : Fin 128 → EReal => (Finset.univ : Finset (Fin 128)).fold max negInf f)
      (funext fun (k : Fin 128) => ?_)
    rw [e k, score_at]
  rw [val_main_v20_apply, val_main_v19_apply, val_main_cst_0_apply, hfold]
  unfold rowMax
  exact max_start_fold _ _ _

/-- The exponential of a score below its row's maximum. -/
theorem expo_at (b : Fin 16) (t : Fin 256) (k : Fin 128) :
    val_main_v24 (F := Ideal) x0 x1 x2 x3 x4 x5 x6 x7 (ix4 b t k (0 : Fin 1))
      = expo (knowAt x0 b) (encAt x1 b) x2 x3 x4 x5 x6 x7 t k := by
  rw [val_main_v24_apply, val_main_v23_apply, val_main_v22_apply, val_main_v21_apply]
  have e : idx_main_v21 (idx_main_v22 (ix4 b t k (0 : Fin 1))) = ix3 b t (0 : Fin 1) :=
    funext fun a => by match a with | ⟨0, _⟩ => rfl | ⟨1, _⟩ => rfl | ⟨2, _⟩ => rfl
  rw [e, score_at, rowMax_at]
  rfl

/-- The softmax denominator: the sum of the exponentials over the knowledge axis, from zero. -/
theorem denom_at (b : Fin 16) (t : Fin 256) :
    val_main_v25 (F := Ideal) x0 x1 x2 x3 x4 x5 x6 x7 (ix3 b t (0 : Fin 1))
      = denom (knowAt x0 b) (encAt x1 b) x2 x3 x4 x5 x6 x7 t := by
  rw [val_main_v25_apply, val_main_cst_1_apply, Ideal.ofBits_def, Ideal.ofBits_zero_f32, zero_add]
  unfold denom
  refine Finset.sum_congr rfl fun k _ => ?_
  have e : idx_main_v25 (ix3 b t (0 : Fin 1)) k = ix4 b t k (0 : Fin 1) :=
    funext fun a => by match a with | ⟨0, _⟩ => rfl | ⟨1, _⟩ => rfl | ⟨2, _⟩ => rfl | ⟨3, _⟩ => rfl
  rw [e, expo_at]

/-- The softmax weight: the quotient, then the sum over the trailing unit axis from zero, which is its one term. -/
theorem weight_at (b : Fin 16) (t : Fin 256) (k : Fin 128) :
    val_main_v29 (F := Ideal) x0 x1 x2 x3 x4 x5 x6 x7 (ix3 b t k)
      = weight (knowAt x0 b) (encAt x1 b) x2 x3 x4 x5 x6 x7 t k := by
  rw [val_main_v29_apply, val_main_cst_2_apply, Ideal.ofBits_def, Ideal.ofBits_zero_f32, zero_add, Fin.sum_univ_one]
  have e1 : idx_main_v29 (ix3 b t k) (0 : Fin 1) = ix4 b t k (0 : Fin 1) :=
    funext fun a => by match a with | ⟨0, _⟩ => rfl | ⟨1, _⟩ => rfl | ⟨2, _⟩ => rfl | ⟨3, _⟩ => rfl
  have e2 : idx_main_v26 (idx_main_v27 (ix4 b t k (0 : Fin 1))) = ix3 b t (0 : Fin 1) :=
    funext fun a => by match a with | ⟨0, _⟩ => rfl | ⟨1, _⟩ => rfl | ⟨2, _⟩ => rfl
  rw [e1, val_main_v28_apply, val_main_v27_apply, val_main_v26_apply, e2, expo_at, denom_at]
  rfl

/-- The attended knowledge row: the batched product of the weights with the knowledge rows. -/
theorem ctx_at (b : Fin 16) (t d : Fin 256) :
    val_main_v30 (F := Ideal) x0 x1 x2 x3 x4 x5 x6 x7 (ix3 b t d)
      = ctx (knowAt x0 b) (encAt x1 b) x2 x3 x4 x5 x6 x7 t d := by
  rw [val_main_v30_apply]
  unfold ctx
  refine Finset.sum_congr rfl fun k _ => ?_
  have e1 : lidx_main_v30 (ix3 b t d) k = ix3 b t k :=
    funext fun a => by match a with | ⟨0, _⟩ => rfl | ⟨1, _⟩ => rfl | ⟨2, _⟩ => rfl
  have e2 : ridx_main_v30 (ix3 b t d) k = ix3 b k d :=
    funext fun a => by match a with | ⟨0, _⟩ => rfl | ⟨1, _⟩ => rfl | ⟨2, _⟩ => rfl
  rw [e1, e2, weight_at]
  rfl

end Stages

/-- The reference's last stage, as a function of the eight arguments, is the specification's `context`. -/
theorem reference_is_context
    (x0 : (⟨S16x128x256, .f32⟩ : BufTy).Contents (Elt Ideal)) (x1 : (⟨S16x256x256, .f32⟩ : BufTy).Contents (Elt Ideal))
    (x2 : (⟨S256x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v30 (F := Ideal) x0 x1 x2 x3 x4 x5 x6 x7 = context x0 x1 x2 x3 x4 x5 x6 x7 := by
  funext i
  obtain ⟨b, t, d, rfl⟩ : ∃ (b : Fin 16) (t : Fin 256) (d : Fin 256), i = ix3 b t d := ⟨i 0, i 1, i 2, eq_ix3 i⟩
  exact (ctx_at x0 x1 x2 x3 x4 x5 x6 x7 b t d).trans (context_apply x0 x1 x2 x3 x4 x5 x6 x7 b t d).symm

end Cert.Attn.Ref

end
-- ==== Proof.lean ====
/-
  The certificate of an additive-attention kernel against its jnp reference, on the extended reals.

  Both programs compute, for batch element b, encoder row t and column d,

      Σ_k softmax_k ( Σ_u tanh ( (Σ_e enc b t e · w1 e u + b1 u) + (Σ_e know b k e · w2 e u + b2 u) ) · v u 0 + bv 0 ) · know b k d ,

  the softmax taken over the knowledge rows k with the row maximum from -∞ subtracted (`Cert.Attn.context`, Spec.lean).
  The kernel does it one batch element per grid point: it projects the knowledge rows once, scores the encoder rows
  sixty-four at a time in a loop that fills a score scratch, and takes the softmax and the final product from the full
  scratch. The reference does it for all batch elements at once over a [16, 256, 128, 128] array. Entry by entry the two
  are the same term: a matrix product into the zero accumulator and a host contraction are both the plain sum over the
  shared axis, a change of float format is the identity, a sum from zero is the sum, a sum over a unit axis is its one
  term, and the larger of -∞'s word and a maximum already taken from that word is that maximum. No law that could fail at
  an infinity is used, so the finiteness of the inputs is never opened.

  The kernel's side: ScoreLoop.lean (the score scratch after the loop, as one function of its index), Payloads.lean and
  BodyValue.lean (the stored block's entries are the specification's), BodyRun.lean (the run's stored block is that
  block), Blocks.lean (where the blocks sit in the arrays), KernelValue.lean (the result array after the run). The
  reference's side: RefSide.lean, over the generated run of the reference read one operation at a time.
  The three frames: the two kernels' are the generated frame certificates, over the body's run with the score scratch,
  read back whole after the loop, named as the one function of the loop's operands (KernelIdealRunA.lean, KernelRunA.lean);
  the reference's is its generated run with the result dropped. The idealization rewrote nothing.
-/
import proofs.«411561_j9826885173721_3_alg».proof.Defs
import proofs.«411561_j9826885173721_3_alg».proof.Proof.Gen.Kernel
import proofs.«411561_j9826885173721_3_alg».proof.Proof.Gen.KernelIdeal
import proofs.«411561_j9826885173721_3_alg».proof.Proof.Gen.ReferenceIdeal
import proofs.«411561_j9826885173721_3_alg».proof.Proof.Gen.Pre_finite_inputs
import proofs.«411561_j9826885173721_3_alg».proof.Proof.Gen.ReferenceIdeal.Run
import proofs.«411561_j9826885173721_3_alg».proof.Proof.Gen.ReferenceIdeal.Read
import proofs.«411561_j9826885173721_3_alg».proof.Proof.KernelFrame
import proofs.«411561_j9826885173721_3_alg».proof.Proof.KernelIdealFrame
import proofs.«411561_j9826885173721_3_alg».proof.Proof.KernelValue
import proofs.«411561_j9826885173721_3_alg».proof.Proof.RefSide
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel (hKernel := Cert.Kernel.Gen.facts) (hPre_finite_inputs := Cert.Pre_finite_inputs.Gen.facts) :=
  fun m ρ _ => Cert.Kernel.GenP.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- So does the reference: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eight arguments both programs end with `context` of those arguments in their
    result arrays: the kernel by its run read block by block, the reference by its run read operation by operation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.Final.result m c, Cert.Attn.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Attn.Ref.reference_is_context,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
